-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S64x96 : Shape := ⟨2, ![64, 96]⟩
abbrev S96x96 : Shape := ⟨2, ![96, 96]⟩
abbrev S96 : Shape := ⟨1, ![96]⟩
abbrev S_ : Shape := ⟨0, ![]⟩

class Facts : Prop where
  bcast_S_S64x96 : S_.BroadcastsInDim S64x96 (![] : Fin 0 → Fin S64x96.rank)
  reducesTo_S64x96_S_d0_1 : S64x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S50000 : S_.BroadcastsInDim S50000 (![] : Fin 0 → Fin S50000.rank)
  reducesTo_S50000_S_d0 : S50000.ReducesTo [0] S_

variable [Facts]

def fn_part3 {F : FTy → Type} [FloatOps F] (main_arg0 : IVec S50000 32) (main_v48 : IVec S_ 1) (main_v50 : IVec S50000 1) : IVec S_ 1 :=
  let main_c_19 : IVec S_ 1 := constantI S_ 1 1#1
  let main_v51 : IVec S_ 1 := (fun x v => Host.reduce IntOp.andi x v reducesTo_S50000_S_d0 h_S_) main_v50 main_c_19
  let main_v52 : IVec S_ 1 := andi main_v48 main_v51
  let main_c_20 : IVec S_ 32 := constantI S_ 32 64#32
  let main_v53 : IVec S50000 32 := broadcastInDim S50000 ![] bcast_S_S50000 main_c_20
  let main_v54 : IVec S50000 1 := cmpi .slt main_arg0 main_v53
  let main_c_21 : IVec S_ 1 := constantI S_ 1 1#1
  let main_v55 : IVec S_ 1 := (fun x v => Host.reduce IntOp.andi x v reducesTo_S50000_S_d0 h_S_) main_v54 main_c_21
  let main_v56 : IVec S_ 1 := andi main_v52 main_v55
  main_v56

def fn_part2 {F : FTy → Type} [FloatOps F] (main_arg0 : IVec S50000 32) (main_arg10 : FVec F S96x96 .f32) (main_arg11 : FVec F S96x96 .f32) (main_arg12 : FVec F S96 .f32) (main_v33 : IVec S_ 1) : IVec S_ 1 :=
  let main_v34 : FVec F S96x96 .f32 := Host.absf main_arg10
  let main_cst_12 : FVec F S_ .f32 := constant S_ .f32 0x7F800000#32
  let main_v35 : FVec F S96x96 .f32 := broadcastInDim S96x96 ![] bcast_S_S96x96 main_cst_12
  let main_v36 : IVec S96x96 1 := cmpf .olt main_v34 main_v35
  let main_c_13 : IVec S_ 1 := constantI S_ 1 1#1
  let main_v37 : IVec S_ 1 := (fun x v => Host.reduce IntOp.andi x v reducesTo_S96x96_S_d0_1 h_S_) main_v36 main_c_13
  let main_v38 : IVec S_ 1 := andi main_v33 main_v37
  let main_v39 : FVec F S96x96 .f32 := Host.absf main_arg11
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg12
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_c_18 : IVec S_ 32 := constantI S_ 32 0#32
  let main_v49 : IVec S50000 32 := broadcastInDim S50000 ![] bcast_S_S50000 main_c_18
  let main_v50 : IVec S50000 1 := cmpi .sge main_arg0 main_v49
  fn_part3 (F := F) main_arg0 main_v48 main_v50

def fn_part1 {F : FTy → Type} [FloatOps F] (main_arg0 : IVec S50000 32) (main_arg7 : FVec F S96x96 .f32) (main_arg8 : FVec F S96x96 .f32) (main_arg9 : FVec F S96 .f32) (main_arg10 : FVec F S96x96 .f32) (main_arg11 : FVec F S96x96 .f32) (main_arg12 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg7
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96x96 .f32 := Host.absf main_arg8
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg9
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg0 main_arg10 main_arg11 main_arg12 main_v33

def fn {F : FTy → Type} [FloatOps F] (main_arg0 : IVec S50000 32) (main_arg1 : IVec S800000 32) (main_arg2 : IVec S800000 32) (main_arg3 : FVec F S64x96 .f32) (main_arg4 : FVec F S96x96 .f32) (main_arg5 : FVec F S96x96 .f32) (main_arg6 : FVec F S96 .f32) (main_arg7 : FVec F S96x96 .f32) (main_arg8 : FVec F S96x96 .f32) (main_arg9 : FVec F S96 .f32) (main_arg10 : FVec F S96x96 .f32) (main_arg11 : FVec F S96x96 .f32) (main_arg12 : FVec F S96 .f32) : IVec S_ 1 :=
  let main_v0 : FVec F S64x96 .f32 := Host.absf main_arg3
  let main_cst : FVec F S_ .f32 := constant S_ .f32 0x7F800000#32
  let main_v1 : FVec F S64x96 .f32 := broadcastInDim S64x96 ![] bcast_S_S64x96 main_cst
  let main_v2 : IVec S64x96 1 := cmpf .olt main_v0 main_v1
  let main_c : IVec S_ 1 := constantI S_ 1 1#1
  let main_v3 : IVec S_ 1 := (fun x v => Host.reduce IntOp.andi x v reducesTo_S64x96_S_d0_1 h_S_) main_v2 main_c
  let main_v4 : FVec F S96x96 .f32 := Host.absf main_arg4
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg5
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg6
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg0 main_arg7 main_arg8 main_arg9 main_arg10 main_arg11 main_arg12 main_v13 main_v16
-- ==== Kernel.lean ====
abbrev S50000 : Shape := ⟨1, ![50000]⟩
abbrev S800000 : Shape := ⟨1, ![800000]⟩
abbrev S64x96 : Shape := ⟨2, ![64, 96]⟩
abbrev S96x96 : Shape := ⟨2, ![96, 96]⟩
abbrev S96 : Shape := ⟨1, ![96]⟩
abbrev S_ : Shape := ⟨0, ![]⟩
abbrev S800000x1 : Shape := ⟨2, ![800000, 1]⟩
abbrev S50000x1 : Shape := ⟨2, ![50000, 1]⟩
abbrev S50000x96 : Shape := ⟨2, ![50000, 96]⟩
abbrev S5000x1 : Shape := ⟨2, ![5000, 1]⟩
abbrev S5000x96 : Shape := ⟨2, ![5000, 96]⟩
abbrev S5000x64 : Shape := ⟨2, ![5000, 64]⟩
abbrev S800000x96 : Shape := ⟨2, ![800000, 96]⟩
abbrev S1x96 : Shape := ⟨2, ![1, 96]⟩

abbrev nBuf : Space → Nat
  | .hbm => 81
  | .vmem => 32
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S64x96, .f32⟩
  | .hbm, ⟨4, _⟩ => ⟨S96x96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96x96, .f32⟩
  | .hbm, ⟨9, _⟩ => ⟨S96, .f32⟩
  | .hbm, ⟨10, _⟩ => ⟨S96x96, .f32⟩
  | .hbm, ⟨11, _⟩ => ⟨S96x96, .f32⟩
  | .hbm, ⟨12, _⟩ => ⟨S96, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .i32⟩
  | .hbm, ⟨26, _⟩ => ⟨S50000x96, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x96, .f32⟩
  | .hbm, ⟨36, _⟩ => ⟨S_, .f32⟩
  | .hbm, ⟨37, _⟩ => ⟨S50000x96, .f32⟩
  | .hbm, ⟨38, _⟩ => ⟨S800000x1, .i32⟩
  | .hbm, ⟨39, _⟩ => ⟨S50000x96, .f32⟩
  | .hbm, ⟨40, _⟩ => ⟨S50000x1, .f32⟩
  | .hbm, ⟨41, _⟩ => ⟨S50000x96, .f32⟩
  | .hbm, ⟨42, _⟩ => ⟨S50000x96, .f32⟩
  | .hbm, ⟨43, _⟩ => ⟨S1x96, .f32⟩
  | .hbm, ⟨44, _⟩ => ⟨S50000x96, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x96, .f32⟩
  | .hbm, ⟨54, _⟩ => ⟨S_, .f32⟩
  | .hbm, ⟨55, _⟩ => ⟨S50000x96, .f32⟩
  | .hbm, ⟨56, _⟩ => ⟨S800000x1, .i32⟩
  | .hbm, ⟨57, _⟩ => ⟨S50000x96, .f32⟩
  | .hbm, ⟨58, _⟩ => ⟨S50000x1, .f32⟩
  | .hbm, ⟨59, _⟩ => ⟨S50000x96, .f32⟩
  | .hbm, ⟨60, _⟩ => ⟨S50000x96, .f32⟩
  | .hbm, ⟨61, _⟩ => ⟨S1x96, .f32⟩
  | .hbm, ⟨62, _⟩ => ⟨S50000x96, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x96, .f32⟩
  | .hbm, ⟨72, _⟩ => ⟨S_, .f32⟩
  | .hbm, ⟨73, _⟩ => ⟨S50000x96, .f32⟩
  | .hbm, ⟨74, _⟩ => ⟨S800000x1, .i32⟩
  | .hbm, ⟨75, _⟩ => ⟨S50000x96, .f32⟩
  | .hbm, ⟨76, _⟩ => ⟨S50000x1, .f32⟩
  | .hbm, ⟨77, _⟩ => ⟨S50000x96, .f32⟩
  | .hbm, ⟨78, _⟩ => ⟨S50000x96, .f32⟩
  | .hbm, ⟨79, _⟩ => ⟨S1x96, .f32⟩
  | .hbm, ⟨80, _⟩ => ⟨S50000x96, .f32⟩
  | .local _ .vmem, ⟨0, _⟩ => ⟨S5000x1, .i32⟩
  | .local _ .vmem, ⟨1, _⟩ => ⟨S5000x1, .i32⟩
  | .local _ .vmem, ⟨2, _⟩ => ⟨S64x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S96x96, .f32⟩
  | .local _ .vmem, ⟨10, _⟩ => ⟨S96x96, .f32⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S96x96, .f32⟩
  | .local _ .vmem, ⟨19, _⟩ => ⟨S96x96, .f32⟩
  | .local _ .vmem, ⟨20, _⟩ => ⟨S1x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S96x96, .f32⟩
  | .local _ .vmem, ⟨28, _⟩ => ⟨S96x96, .f32⟩
  | .local _ .vmem, ⟨29, _⟩ => ⟨S1x96, .f32⟩
  | .local _ .vmem, ⟨30, _⟩ => ⟨S5000x96, .f32⟩
  | .local _ .vmem, ⟨31, _⟩ => ⟨S5000x96, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S96x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  inb_S5000x96_S5000x96_0_0 : ∀ a, (![0, 0] : Fin 2 → Nat) a + S5000x96.size a ≤ S5000x96.size a
  h_S5000x96 : 0 < S5000x96.numel
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S96_S1x96 : S96.ShapeCasts S1x96
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  scatter_S50000_S800000x1_S800000_n_0_0_1_wf : ScatterDims.WF S50000 S800000x1 S800000 [] [0] [0] 1
  dot_S5000x64_S64x96_S5000x96_1_0_0_1_n_n_wf : DotDims.WF S5000x64 S64x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S96x96.size a ≤ S96x96.size a
  hwx3_3 : ∀ i : grid3.Coords, EltTy.bits .f32 = 32 ∨ (Rect.block (s := S96x96) S96x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x96.size a ≤ S50000x96.size a
  hwx3_5 : ∀ i : grid3.Coords, EltTy.bits .f32 = 32 ∨ (Rect.block (s := S50000x96) S5000x96.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v8) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S96x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S5000x96.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000 : Shape := ⟨1, ![50000]⟩
abbrev S800000 : Shape := ⟨1, ![800000]⟩
abbrev S64x96 : Shape := ⟨2, ![64, 96]⟩
abbrev S96x96 : Shape := ⟨2, ![96, 96]⟩
abbrev S96 : Shape := ⟨1, ![96]⟩
abbrev S_ : Shape := ⟨0, ![]⟩
abbrev S800000x1 : Shape := ⟨2, ![800000, 1]⟩
abbrev S50000x1 : Shape := ⟨2, ![50000, 1]⟩
abbrev S50000x96 : Shape := ⟨2, ![50000, 96]⟩
abbrev S800000x96 : Shape := ⟨2, ![800000, 96]⟩
abbrev S1x96 : Shape := ⟨2, ![1, 96]⟩

abbrev nBuf : Space → Nat
  | .hbm => 100
  | .vmem => 0
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S64x96, .f32⟩
  | .hbm, ⟨4, _⟩ => ⟨S96x96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96x96, .f32⟩
  | .hbm, ⟨9, _⟩ => ⟨S96, .f32⟩
  | .hbm, ⟨10, _⟩ => ⟨S96x96, .f32⟩
  | .hbm, ⟨11, _⟩ => ⟨S96x96, .f32⟩
  | .hbm, ⟨12, _⟩ => ⟨S96, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S50000, .i32⟩
  | .hbm, ⟨27, _⟩ => ⟨S50000, .i1⟩
  | .hbm, ⟨28, _⟩ => ⟨S_, .i32⟩
  | .hbm, ⟨29, _⟩ => ⟨S50000, .i32⟩
  | .hbm, ⟨30, _⟩ => ⟨S50000, .i32⟩
  | .hbm, ⟨31, _⟩ => ⟨S50000, .i32⟩
  | .hbm, ⟨32, _⟩ => ⟨S50000x1, .i32⟩
  | .hbm, ⟨33, _⟩ => ⟨S50000x96, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x96, .f32⟩
  | .hbm, ⟨43, _⟩ => ⟨S_, .f32⟩
  | .hbm, ⟨44, _⟩ => ⟨S50000x96, .f32⟩
  | .hbm, ⟨45, _⟩ => ⟨S800000x1, .i32⟩
  | .hbm, ⟨46, _⟩ => ⟨S50000x96, .f32⟩
  | .hbm, ⟨47, _⟩ => ⟨S50000x1, .f32⟩
  | .hbm, ⟨48, _⟩ => ⟨S50000x96, .f32⟩
  | .hbm, ⟨49, _⟩ => ⟨S50000x96, .f32⟩
  | .hbm, ⟨50, _⟩ => ⟨S50000x96, .f32⟩
  | .hbm, ⟨51, _⟩ => ⟨S50000x96, .f32⟩
  | .hbm, ⟨52, _⟩ => ⟨S50000x96, .f32⟩
  | .hbm, ⟨53, _⟩ => ⟨S1x96, .f32⟩
  | .hbm, ⟨54, _⟩ => ⟨S50000x96, .f32⟩
  | .hbm, ⟨55, _⟩ => ⟨S50000x96, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x96, .f32⟩
  | .hbm, ⟨65, _⟩ => ⟨S_, .f32⟩
  | .hbm, ⟨66, _⟩ => ⟨S50000x96, .f32⟩
  | .hbm, ⟨67, _⟩ => ⟨S800000x1, .i32⟩
  | .hbm, ⟨68, _⟩ => ⟨S50000x96, .f32⟩
  | .hbm, ⟨69, _⟩ => ⟨S50000x1, .f32⟩
  | .hbm, ⟨70, _⟩ => ⟨S50000x96, .f32⟩
  | .hbm, ⟨71, _⟩ => ⟨S50000x96, .f32⟩
  | .hbm, ⟨72, _⟩ => ⟨S50000x96, .f32⟩
  | .hbm, ⟨73, _⟩ => ⟨S50000x96, .f32⟩
  | .hbm, ⟨74, _⟩ => ⟨S50000x96, .f32⟩
  | .hbm, ⟨75, _⟩ => ⟨S1x96, .f32⟩
  | .hbm, ⟨76, _⟩ => ⟨S50000x96, .f32⟩
  | .hbm, ⟨77, _⟩ => ⟨S50000x96, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x96, .f32⟩
  | .hbm, ⟨87, _⟩ => ⟨S_, .f32⟩
  | .hbm, ⟨88, _⟩ => ⟨S50000x96, .f32⟩
  | .hbm, ⟨89, _⟩ => ⟨S800000x1, .i32⟩
  | .hbm, ⟨90, _⟩ => ⟨S50000x96, .f32⟩
  | .hbm, ⟨91, _⟩ => ⟨S50000x1, .f32⟩
  | .hbm, ⟨92, _⟩ => ⟨S50000x96, .f32⟩
  | .hbm, ⟨93, _⟩ => ⟨S50000x96, .f32⟩
  | .hbm, ⟨94, _⟩ => ⟨S50000x96, .f32⟩
  | .hbm, ⟨95, _⟩ => ⟨S50000x96, .f32⟩
  | .hbm, ⟨96, _⟩ => ⟨S50000x96, .f32⟩
  | .hbm, ⟨97, _⟩ => ⟨S1x96, .f32⟩
  | .hbm, ⟨98, _⟩ => ⟨S50000x96, .f32⟩
  | .hbm, ⟨99, _⟩ => ⟨S50000x96, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S800000x1_S800000_n_0_0_1_wf : ScatterDims.WF S50000 S800000x1 S800000 [] [0] [0] 1
  gather_S64x96_S50000x1_S50000x96_1_0_n_n_0_1_196_wf : GatherDims.WF S64x96 S50000x1 S50000x96 [1] [0] [] [0] [] 1 ![1, 96]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S64x96_S50000x1_S50000x96_1_0_n_n_0_1_196 : GatherDims S64x96 S50000x1 S50000x96 where
  offsetDims := [1]
  collapsedSliceDims := [0]
  operandBatchingDims := []
  startIndicesBatchingDims := []
  startIndexMap := [0]
  indexVectorDim := 1
  sliceSizes := ![1, 96]
  wf := gather_S64x96_S50000x1_S50000x96_1_0_n_n_0_1_196_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.HostSteps.lean ====
/-
  The four stretches of host operations between the kernel launches, each as a function of the buffer contents it
  starts from (any contents, any float family): the buffers a stretch computes that a later launch reads — the
  in-degree's reciprocal, the index column, the neighbourhood mean, the bias as a one-row matrix — and the buffers it
  leaves alone.  The neighbourhood mean and the reciprocal are kept as two named functions: both programs apply the
  same operations there, so the proof never opens them.
-/
import proofs.«416371_j28604482191526_1_alg».proof.Proof.KernelIdealFrame
import Idealize.ShloMosaic.Lib.StableHlo.Run

set_option maxRecDepth 16384

noncomputable section

namespace Cert.KernelIdeal.Host

open Idealize.ShloMosaic Idealize.ShloMosaic.TcCoe Idealize.SL.Sem
open Cert.KernelIdeal Cert.KernelIdeal.Gen Cert.KernelIdeal.GenP

variable {F : FTy → Type} [FloatOps F]

/-- 1 / max(in-degree, 1): the in-degree is a scatter-add of ones into zeros at the destination ids. -/
def invDeg (e2 : IVec S800000 32) : FVec F S50000 .f32 :=
  Host.divf (broadcastInDim S50000 ![] bcast_S_S50000 (constant S_ .f32 0x3F800000#32))
    (maximumf (Host.scatterAdd scatter_S50000_S800000x1_S800000_n_0_0_1
        (broadcastInDim S50000 ![] bcast_S_S50000 (constant S_ .f32 0x00000000#32))
        (broadcastInDim S800000x1 ![0] bcast_S800000_S800000x1_0 e2)
        (broadcastInDim S800000 ![] bcast_S_S800000 (constant S_ .f32 0x3F800000#32)))
      (broadcastInDim S50000 ![] bcast_S_S50000 (constant S_ .f32 0x3F800000#32)))

/-- The neighbourhood mean: the rows of x gathered at the source ids (negative ids wrapped), scatter-added into zeros
    at the destination ids, each row scaled by its node's 1 / max(in-degree, 1). -/
def agg (x : FVec F S50000x96 .f32) (e1 e2 : IVec S800000 32) (inv : FVec F S50000 .f32) : FVec F S50000x96 .f32 :=
  mulf (Host.scatterAdd scatter_S50000x96_S800000x1_S800000x96_1_0_0_1
      (broadcastInDim S50000x96 ![] bcast_S_S50000x96 (constant S_ .f32 0x00000000#32))
      (broadcastInDim S800000x1 ![0] bcast_S800000_S800000x1_0 e2)
      (Host.gather gather_S50000x96_S800000x1_S800000x96_1_0_n_n_0_1_196 x
        (broadcastInDim S800000x1 ![0] bcast_S800000_S800000x1_0
          (select (cmpi .slt e1 (broadcastInDim S800000 ![] bcast_S_S800000 (constantI S_ 32 0#32)))
            (addi e1 (broadcastInDim S800000 ![] bcast_S_S800000 (constantI S_ 32 50000#32))) e1))))
    (broadcastInDim S50000x96 ![0, 1] bcast_S50000x1_S50000x96_0_1 (broadcastInDim S50000x1 ![0] bcast_S50000_S50000x1_0 inv))

/-- Every buffer of the list holds after the stretch what it held before. -/
def Keeps (ops : List (HloOp τ sig (Elt F))) (S : List (Ref sig .tc)) : Prop :=
  ∀ (W : Valuation τ sig (Elt F)) (b : Ref sig .tc), b ∈ S → StableHlo.after ops W (Proc.devRef .tc b) = W (Proc.devRef .tc b)

variable (W : Valuation τ sig (Elt F))

/-! ## Before the first launch -/

theorem first_inv : StableHlo.after hostOps0 W (Proc.devRef .tc main_v7) = invDeg (F := F) (W (Proc.devRef .tc main_arg2)) := by
  after_results
  rfl

theorem first_col : StableHlo.after hostOps0 W (Proc.devRef .tc main_v8)
    = shapeCast S50000x1 (W (Proc.devRef .tc main_arg0)) shapeCasts_S50000_S50000x1 := by
  after_results
  rfl

set_option maxHeartbeats 4000000 in
theorem first_keeps : Keeps (F := F) hostOps0 [main_arg1, main_arg2, main_arg3, main_arg4, main_arg5, main_arg6, main_arg7, main_arg8, main_arg9, main_arg10, main_arg11, main_arg12] := by
  intro W b hb
  simp only [List.mem_cons, List.mem_nil_iff, or_false] at hb
  rcases hb with rfl | rfl | rfl | rfl | rfl | rfl | rfl | rfl | rfl | rfl | rfl | rfl
  all_goals after_results

/-! ## Between the first and the second launch -/

set_option maxHeartbeats 4000000 in
theorem second_agg : StableHlo.after hostOps1 W (Proc.devRef .tc main_v22)
    = agg (F := F) (W (Proc.devRef .tc main_v9)) (W (Proc.devRef .tc main_arg1)) (W (Proc.devRef .tc main_arg2)) (W (Proc.devRef .tc main_v7)) := by
  after_results_simp
  rfl

set_option maxHeartbeats 4000000 in
theorem second_bias : StableHlo.after hostOps1 W (Proc.devRef .tc main_v23)
    = shapeCast S1x96 (W (Proc.devRef .tc main_arg6)) shapeCasts_S96_S1x96 := by
  after_results_simp
  rfl

set_option maxHeartbeats 8000000 in
theorem second_keeps : Keeps (F := F) hostOps1 [main_v9, main_v7, main_arg1, main_arg2, main_arg4, main_arg5, main_arg7, main_arg8, main_arg9, main_arg10, main_arg11, main_arg12] := by
  intro W b hb
  simp only [List.mem_cons, List.mem_nil_iff, or_false] at hb
  rcases hb with rfl | rfl | rfl | rfl | rfl | rfl | rfl | rfl | rfl | rfl | rfl | rfl
  all_goals after_results_simp

/-! ## Between the second and the third launch -/

set_option maxHeartbeats 4000000 in
theorem third_agg : StableHlo.after hostOps2 W (Proc.devRef .tc main_v37)
    = agg (F := F) (W (Proc.devRef .tc main_v24)) (W (Proc.devRef .tc main_arg1)) (W (Proc.devRef .tc main_arg2)) (W (Proc.devRef .tc main_v7)) := by
  after_results_simp
  rfl

set_option maxHeartbeats 4000000 in
theorem third_bias : StableHlo.after hostOps2 W (Proc.devRef .tc main_v38)
    = shapeCast S1x96 (W (Proc.devRef .tc main_arg9)) shapeCasts_S96_S1x96 := by
  after_results_simp
  rfl

set_option maxHeartbeats 8000000 in
theorem third_keeps : Keeps (F := F) hostOps2 [main_v24, main_v7, main_arg1, main_arg2, main_arg7, main_arg8, main_arg10, main_arg11, main_arg12] := by
  intro W b hb
  simp only [List.mem_cons, List.mem_nil_iff, or_false] at hb
  rcases hb with rfl | rfl | rfl | rfl | rfl | rfl | rfl | rfl | rfl
  all_goals after_results_simp

/-! ## Between the third and the fourth launch -/

set_option maxHeartbeats 4000000 in
theorem fourth_agg : StableHlo.after hostOps3 W (Proc.devRef .tc main_v52)
    = agg (F := F) (W (Proc.devRef .tc main_v39)) (W (Proc.devRef .tc main_arg1)) (W (Proc.devRef .tc main_arg2)) (W (Proc.devRef .tc main_v7)) := by
  after_results_simp
  rfl

set_option maxHeartbeats 4000000 in
theorem fourth_bias : StableHlo.after hostOps3 W (Proc.devRef .tc main_v53)
    = shapeCast S1x96 (W (Proc.devRef .tc main_arg12)) shapeCasts_S96_S1x96 := by
  after_results_simp
  rfl

set_option maxHeartbeats 8000000 in
theorem fourth_keeps : Keeps (F := F) hostOps3 [main_v39, main_arg10, main_arg11] := by
  intro W b hb
  simp only [List.mem_cons, List.mem_nil_iff, or_false] at hb
  rcases hb with rfl | rfl | rfl
  all_goals after_results_simp

end Cert.KernelIdeal.Host

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.Embed.lean ====
/-
  The first launch (the embedding lookup) read as a value.  Each of its ten grid points reads a block of 5000 index
  words and the whole 64 x 96 table, builds the 5000 x 64 matrix whose (r, k) entry is 1 when k is row r's index word
  and 0 otherwise, and multiplies it into the table.  On the extended reals 0 times anything is 0 and 1 times anything
  is itself, so with the index word below 64 the sum over the 64 table rows keeps exactly one term: row r of the
  block is the table's row at r's index word.  A row of a block is a row of the whole array, and the ten blocks tile
  the 50000 rows, so the output array ends as 'row n = the table's row at the n-th index word'.
-/
import proofs.«416371_j28604482191526_1_alg».proof.Proof.KernelIdealFrame
import proofs.«416371_j28604482191526_1_alg».proof.Proof.LibMlp
import Idealize.ShloMosaic.Lib.StableHlo.Predicate

set_option maxRecDepth 16384

noncomputable section

namespace Cert.KernelIdeal.Embed

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- A widened comparison bit read as a signed integer and then as a real is 1 when the bit is set and 0 otherwise. -/
private theorem bit_val (b : BitVec 1) : (((b.setWidth 32).toInt : ℝ) : EReal) = if b = 1#1 then 1 else 0 := by
  rcases BitVec.eq_zero_or_eq_one b with rfl | rfl
  · simp
  · simp

/-- The one-hot matrix at (r, k): 1 when k is the index word of row r, else 0. -/
private theorem onehot_apply (x0 : IVec S5000x1 32) (r : Fin 5000) (k : Fin 64) :
    (sitofp .f32 (extui 32 (cmpi .eq (iota .tc S5000x64 32 [1] iota_S5000x64_d1_w32)
        (broadcastTo S5000x64 x0 broadcasts_S5000x1_S5000x64)) natLt_1_32) : FVec Ideal S5000x64 .f32) (ix2 r k)
      = if BitVec.ofNat 32 k.val = x0 (ix2 r 0) then 1 else 0 := by
  show ((((IntOp.cmpi .eq (iota .tc S5000x64 32 [1] iota_S5000x64_d1_w32 (ix2 r k))
      (broadcastTo S5000x64 x0 broadcasts_S5000x1_S5000x64 (ix2 r k))).setWidth 32).toInt : ℝ) : EReal) = _
  rw [bit_val, iota_single_apply]
  rw [broadcastTo_apply x0 broadcasts_S5000x1_S5000x64 (ix2 r k) (ix2 r 0) (fun a => by
    match a with
    | ⟨0, _⟩ => rfl
    | ⟨1, _⟩ => rfl)]
  simp only [StableHlo.Predicate.cmpi_eq_iff]

/-- The payload at (r, d): with the index word of row r below 64, the one-hot row picks that row of the table. -/
private theorem pay_apply (x0 : Vec Ideal S5000x1 .i32) (x1 : Vec Ideal S64x96 .f32) (r : Fin 5000) (d : Fin 96)
    (h : (x0 (ix2 r 0)).toNat < 64) :
    k0_pay1 x0 x1 (ix2 r d) = x1 (ix2 ⟨(x0 (ix2 r 0)).toNat, h⟩ d) := by
  unfold k0_pay1
  simp only [shapeCast_self]
  refine (Ideal.matmul_constant_zero_apply (DotDims.plain 5000 64 96) none _ _ (ix2 r d)).trans ?_
  refine (Cert.Mlp.plain_sum _ _ (ix2 r d)).trans ?_
  show (∑ k : Fin 64, (sitofp .f32 (extui 32 (cmpi .eq (iota .tc S5000x64 32 [1] iota_S5000x64_d1_w32)
        (broadcastTo S5000x64 x0 broadcasts_S5000x1_S5000x64)) natLt_1_32) : FVec Ideal S5000x64 .f32) (ix2 r k) * x1 (ix2 k d)) = _
  rw [Finset.sum_eq_single (⟨(x0 (ix2 r 0)).toNat, h⟩ : Fin 64)]
  · refine (congrArg (· * x1 (ix2 ⟨(x0 (ix2 r 0)).toNat, h⟩ d)) (onehot_apply x0 r ⟨(x0 (ix2 r 0)).toNat, h⟩)).trans ?_
    show (if BitVec.ofNat 32 (x0 (ix2 r 0)).toNat = x0 (ix2 r 0) then (1 : EReal) else 0) * _ = _
    rw [if_pos (BitVec.eq_of_toNat_eq (by rw [BitVec.toNat_ofNat]; exact Nat.mod_eq_of_lt (x0 (ix2 r 0)).isLt))]
    exact one_mul _
  · intro k _ hk
    refine (congrArg (· * x1 (ix2 k d)) (onehot_apply x0 r k)).trans ?_
    show (if BitVec.ofNat 32 k.val = x0 (ix2 r 0) then (1 : EReal) else 0) * _ = _
    rw [if_neg, zero_mul]
    intro e
    apply hk
    apply Fin.ext
    show k.val = (x0 (ix2 r 0)).toNat
    rw [← e, BitVec.toNat_ofNat]
    have := k.isLt
    omega
  · intro hn
    exact absurd (Finset.mem_univ _) hn

private theorem hz : (![0, 0] : Fin 2 → Nat) = fun _ => 0 := funext fun a => by fin_cases a <;> rfl

/-- One entry of a block against the whole arrays: the block's index word is the array's at the same row, the table
    is the array itself, the column is the same; inside the range the clamp does nothing. -/
private theorem point (I : Vec Ideal S50000x1 .i32) (T : Vec Ideal S64x96 .f32)
    (x0 : Vec Ideal S5000x1 .i32) (x1 : Vec Ideal S64x96 .f32) (y : S5000x96.Idx) (i : S50000x96.Idx)
    (h0 : x0 (ix2 (y 0) 0) = I (ix2 (i 0) 0)) (h1 : x1 = T) (hq : (y 1 : Fin 96) = (i 1 : Fin 96))
    (hI : (I (ix2 (i 0) 0)).toNat < 64) :
    k0_pay1 x0 x1 y = T (ix2 ⟨min (I (ix2 (i 0) 0)).toNat 63, by omega⟩ (i 1)) := by
  subst h1
  have hx : (x0 (ix2 (y 0) 0)).toNat < 64 := by rw [h0]; exact hI
  refine ((congrArg (k0_pay1 x0 x1) (eq_ix2 y)).trans (pay_apply x0 x1 (y 0) (y 1) hx)).trans ?_
  refine congrArg x1 (funext fun a => Fin.ext ?_)
  match a with
  | ⟨0, _⟩ =>
    show (x0 (ix2 (y 0) 0)).toNat = min (I (ix2 (i 0) 0)).toNat 63
    rw [h0]; omega
  | ⟨1, _⟩ => exact congrArg Fin.val hq

private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Row n of the result is the table's row at the n-th index word (clamped at the table's last row, as the
    reference's gather clamps; inside the range the clamp does nothing). -/
abbrev whole (c : Dev nD) : S50000x96.Idx → EReal :=
  fun i => V c main_arg3 (ix2 ⟨min (V c main_v8 (ix2 (i 0) 0)).toNat 63, by omega⟩ (i 1))

/-- What point t writes back is the block of the closed form: row r of the block is row t*5000 + r of the array. -/
private theorem flushed_eq (c : Dev nD) (h : ∀ p : Fin 50000, (V c main_v8 (ix2 p 0)).toNat < 64) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x1) hz, View.ld_unit_zero (S := S64x96) hz]
  obtain ⟨e00, e01, e10, e11, e20, e21, ht⟩ := idx_facts t
  funext j
  show k0_pay1 (iblk0 V c 0 t) (iblk0 V c 1 t) j = whole V c (((cfg0.win 2).blk t).view.emb j)
  refine point (V c main_v8) (V c main_arg3) _ _ j _ ?_ ?_ ?_ (h _)
  · show V c main_v8 (((cfg0.win 0).blk t).view.emb (ix2 (j 0) 0)) = V c main_v8 (ix2 ((((cfg0.win 2).blk t).view.emb j) 0) 0)
    refine congrArg (V c main_v8) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 1 + 1 * 0 = 0; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 64 + 1 * (y 0).val = (y 0).val; omega
    | ⟨1, _⟩ => show win0_1.index t (1 : Fin 2) * 96 + 1 * (y 1).val = (y 1).val; omega
  · refine Fin.ext ?_
    show (j 1).val = win0_2.index t (1 : Fin 2) * 96 + 1 * (j 1).val
    omega

/-- An index of the array is in point t's block iff each coordinate is in the block's range on its axis. -/
private theorem mem_blk (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v9).slice (win0_2.rect t)).set ↔ _
  rw [View.set_slice_whole, Rect.mem_set_unit]
  exact Iff.rfl

/-- Every block of rows is some point's. -/
private theorem idx_onto : ∀ q0 : Fin 10, ∃ t : Fin cfg0.N, win0_2.index t = ![q0.val, 0] :=
  (by decide +kernel : ∀ q0 : Fin 10, ∃ t : Fin grid0.N, win0_2.index t = ![q0.val, 0])

/-- The ten blocks of 5000 rows tile the 50000 rows: row n is in block n / 5000. -/
private theorem cover (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- The region's output array after its ten points, when every index word is below 64. -/
theorem final (c : Dev nD) (h : ∀ p : Fin 50000, (V c main_v8 (ix2 p 0)).toNat < 64) :
    (dat0 V c).arrAt 2 cfg0.N = whole V c :=
  (dat0 V c).arrAt_eq_of_cover 2 (whole V c) (fun t _ => flushed_eq V c h t) cover

end Cert.KernelIdeal.Embed

end
-- ==== Proof.SageLayer.lean ====
/-
  One layer of the graph network's dense update, as a function on the extended reals, index by index:

      out[n, d] = (sum_k x[n, k] * Ws[k, d]  +  sum_k g[n, k] * Wn[k, d])  +  b[d]

  where x holds the nodes' own features and g their neighbourhood means.  Written over plain coordinates so that a
  block of rows and the whole array are the same function of their rows, and read off the two spellings a program
  gives it: the vector dialect's (two matrix-unit products into zero accumulators, a one-row bias broadcast down the
  rows) and the host's (two dot_generals, the bias vector broadcast in two steps).  Only commutative-monoid structure
  of the extended reals is used: no finiteness is needed.
-/
import Idealize.ShloMosaic.PureOps.Ideal
import Idealize.ShloMosaic.PureOps.Ideal.Laws
import Idealize.ShloMosaic.Lib.ValueIdx
import Idealize.ShloMosaic.Lib.Pipeline.Value
import proofs.«416371_j28604482191526_1_alg».proof.Proof.LibMlp

noncomputable section

open Idealize.ShloMosaic Idealize.ShloMosaic.ValueIdx

namespace Cert.Sage

/-- The layer at (n, d): the node's own row against column d of Ws, its neighbourhood row against column d of Wn,
    and the bias. -/
def sage {N K H : ℕ} (x g : (⟨2, ![N, K]⟩ : Shape).Idx → EReal) (Ws Wn : (⟨2, ![K, H]⟩ : Shape).Idx → EReal)
    (b : Fin H → EReal) : (⟨2, ![N, H]⟩ : Shape).Idx → EReal := fun i =>
  ((∑ k : Fin K, x (ix2 (i 0) k) * Ws (ix2 k (i 1))) + (∑ k : Fin K, g (ix2 (i 0) k) * Wn (ix2 k (i 1)))) + b (i 1)

/-- The layer reads only the row it is asked for: inputs that agree on a row give the same row. -/
theorem sage_row {N N' K H : ℕ} (x g : (⟨2, ![N, K]⟩ : Shape).Idx → EReal) (x' g' : (⟨2, ![N', K]⟩ : Shape).Idx → EReal)
    (Ws Wn : (⟨2, ![K, H]⟩ : Shape).Idx → EReal) (b : Fin H → EReal) (r : Fin N) (r' : Fin N') (j : Fin H)
    (hx : ∀ k : Fin K, x (ix2 r k) = x' (ix2 r' k)) (hg : ∀ k : Fin K, g (ix2 r k) = g' (ix2 r' k)) :
    sage x g Ws Wn b (ix2 r j) = sage x' g' Ws Wn b (ix2 r' j) := by
  unfold sage
  have h1 : (∑ k : Fin K, x (ix2 r k) * Ws (ix2 k j)) = ∑ k : Fin K, x' (ix2 r' k) * Ws (ix2 k j) :=
    Finset.sum_congr rfl fun k _ => by rw [hx k]
  have h2 : (∑ k : Fin K, g (ix2 r k) * Wn (ix2 k j)) = ∑ k : Fin K, g' (ix2 r' k) * Wn (ix2 k j) :=
    Finset.sum_congr rfl fun k _ => by rw [hg k]
  show ((∑ k : Fin K, x (ix2 r k) * Ws (ix2 k j)) + (∑ k : Fin K, g (ix2 r k) * Wn (ix2 k j))) + b j
    = ((∑ k : Fin K, x' (ix2 r' k) * Ws (ix2 k j)) + (∑ k : Fin K, g' (ix2 r' k) * Wn (ix2 k j))) + b j
  rw [h1, h2]

/-- The vector dialect's spelling: two products into zero accumulators, added, plus the bias row broadcast. -/
theorem vec_sage {N K H : ℕ} {φx φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (x g : FVec Ideal ⟨2, ![N, K]⟩ φx) (Ws Wn : FVec Ideal ⟨2, ![K, H]⟩ φw) (b : FVec Ideal ⟨2, ![1, H]⟩ .f32) :
    addf (addf (matmul d none x Ws (constant ⟨2, ![N, H]⟩ .f32 0x00000000#32))
        (matmul d none g Wn (constant ⟨2, ![N, H]⟩ .f32 0x00000000#32)))
        (broadcastTo ⟨2, ![N, H]⟩ b hb)
      = sage x g Ws Wn (Cert.Mlp.row b) := by
  subst hd
  funext i
  obtain ⟨p, q, rfl⟩ : ∃ (p : Fin N) (q : Fin H), i = ix2 p q := ⟨i 0, i 1, eq_ix2 i⟩
  simp only [addf_apply]
  have hm : ∀ (a : FVec Ideal ⟨2, ![N, K]⟩ φx) (W : FVec Ideal ⟨2, ![K, H]⟩ φw),
      matmul (DotDims.plain N K H) none a W (constant ⟨2, ![N, H]⟩ .f32 0x00000000#32) (ix2 p q)
        = ∑ k : Fin K, a (ix2 p k) * W (ix2 k q) := fun a W => by
    rw [show matmul (DotDims.plain N K H) none a W (constant ⟨2, ![N, H]⟩ .f32 0x00000000#32) (ix2 p q) = _ from
      Ideal.matmul_constant_zero_apply (DotDims.plain N K H) none a W (ix2 p q)]
    exact Cert.Mlp.plain_sum a W (ix2 p q)
  rw [Cert.Mlp.bcast_row hb b p q, hm x Ws, hm g Wn]
  rfl

/-- The host's spelling: two dot_generals, added, plus the bias vector broadcast to a row and down the rows. -/
theorem host_sage {N K H : ℕ} {φx φw : FTy} (d : DotDims ⟨2, ![N, K]⟩ ⟨2, ![K, H]⟩ ⟨2, ![N, H]⟩) (hd : d = DotDims.plain N K H)
    (h1 : (⟨1, ![H]⟩ : Shape).BroadcastsInDim ⟨2, ![1, H]⟩ ![1])
    (h2 : (⟨2, ![1, H]⟩ : Shape).BroadcastsInDim ⟨2, ![N, H]⟩ ![0, 1])
    (x g : FVec Ideal ⟨2, ![N, K]⟩ φx) (Ws Wn : FVec Ideal ⟨2, ![K, H]⟩ φw) (b : FVec Ideal ⟨1, ![H]⟩ .f32) :
    addf (addf (Host.dotGeneral d none x Ws) (Host.dotGeneral d none g Wn))
        (broadcastInDim (⟨2, ![N, H]⟩ : Shape) ![0, 1] h2 (broadcastInDim (⟨2, ![1, H]⟩ : Shape) ![1] h1 b))
      = sage x g Ws Wn (Cert.Mlp.vec b) := by
  subst hd
  funext i
  obtain ⟨p, q, rfl⟩ : ∃ (p : Fin N) (q : Fin H), i = ix2 p q := ⟨i 0, i 1, eq_ix2 i⟩
  simp only [addf_apply]
  have hm : ∀ (a : FVec Ideal ⟨2, ![N, K]⟩ φx) (W : FVec Ideal ⟨2, ![K, H]⟩ φw),
      Host.dotGeneral (DotDims.plain N K H) none a W (ix2 p q) = ∑ k : Fin K, a (ix2 p k) * W (ix2 k q) := fun a W => by
    rw [show Host.dotGeneral (DotDims.plain N K H) none a W (ix2 p q) = _ from
      Ideal.dotGeneral_apply (DotDims.plain N K H) none .single a W (ix2 p q)]
    exact Cert.Mlp.plain_sum a W (ix2 p q)
  rw [Cert.Mlp.bcast_two h1 h2 b p q, hm x Ws, hm g Wn]
  rfl

end Cert.Sage

end
-- ==== Proof.Layer1.lean ====
/-
  One dense-layer launch read as a value: what its output array holds after its ten grid points.  Each point reads a
  block of 5000 node rows of the features and of their neighbourhood means, the two whole 96 x 96 weight matrices and
  the one-row bias, and writes the layer's block of rows.  The body's arithmetic is the layer function of its blocks;
  an entry of the layer depends only on its own row, so what point t writes back is block t of the layer of the whole
  arrays; and the ten blocks tile the 50000 rows (row n lies in block n / 5000), so the output array ends as the
  layer of the arrays the launch found.
-/
import proofs.«416371_j28604482191526_1_alg».proof.Proof.KernelIdealFrame
import proofs.«416371_j28604482191526_1_alg».proof.Proof.SageLayer

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- The offset of every access of the body: the origin. -/
theorem hz : (![0, 0] : Fin 2 → Nat) = fun _ => 0 := funext fun a => by fin_cases a <;> rfl

/-- The body's arithmetic on its blocks is the layer function of the blocks (format changes are the identity on the
    extended reals; the casts are between equal shapes). -/
theorem pay_eq (x0 x1 : Vec Ideal S5000x96 .f32) (x2 x3 : Vec Ideal S96x96 .f32) (x4 : Vec Ideal S1x96 .f32) :
    k1_pay1 x0 x1 x2 x3 x4 = Cert.Sage.sage x0 x1 x2 x3 (Cert.Mlp.row x4) := by
  unfold k1_pay1
  simp only [shapeCast_self]
  exact Cert.Sage.vec_sage dot_S5000x96_S96x96_S5000x96_1_0_0_1_n_n rfl broadcasts_S1x96_S5000x96 x0 x1 x2 x3 x4

/-- One entry of a block against the entry of the whole array it is written back to: the block's row is the
    array's row, the weights and the bias are the arrays themselves, the column is the same. -/
theorem point (X G : S50000x96.Idx → EReal) (Ws Wn : S96x96.Idx → EReal) (B : S1x96.Idx → EReal)
    (x0 x1 : S5000x96.Idx → EReal) (x2 x3 : S96x96.Idx → EReal) (x4 : S1x96.Idx → EReal)
    (y : S5000x96.Idx) (i : S50000x96.Idx)
    (h0 : ∀ k : Fin 96, x0 (ix2 (y 0) k) = X (ix2 (i 0) k))
    (h1 : ∀ k : Fin 96, x1 (ix2 (y 0) k) = G (ix2 (i 0) k))
    (h2 : x2 = Ws) (h3 : x3 = Wn) (h4 : x4 = B) (hq : (y 1 : Fin 96) = (i 1 : Fin 96)) :
    Cert.Sage.sage x0 x1 x2 x3 (Cert.Mlp.row x4) y = Cert.Sage.sage X G Ws Wn (Cert.Mlp.row B) i := by
  subst h2 h3 h4
  have e0 : (∑ k : Fin 96, x0 (ix2 (y 0) k) * x2 (ix2 k (y 1))) = ∑ k : Fin 96, X (ix2 (i 0) k) * x2 (ix2 k (i 1)) :=
    Finset.sum_congr rfl fun k _ => by rw [h0 k, hq]
  have e1 : (∑ k : Fin 96, x1 (ix2 (y 0) k) * x3 (ix2 k (y 1))) = ∑ k : Fin 96, G (ix2 (i 0) k) * x3 (ix2 k (i 1)) :=
    Finset.sum_congr rfl fun k _ => by rw [h1 k, hq]
  show ((∑ k : Fin 96, x0 (ix2 (y 0) k) * x2 (ix2 k (y 1))) + (∑ k : Fin 96, x1 (ix2 (y 0) k) * x3 (ix2 k (y 1)))) + Cert.Mlp.row x4 (y 1)
    = ((∑ k : Fin 96, X (ix2 (i 0) k) * x2 (ix2 k (i 1))) + (∑ k : Fin 96, G (ix2 (i 0) k) * x3 (ix2 k (i 1)))) + Cert.Mlp.row x4 (i 1)
  rw [e0, e1, hq]

/-- The layer of the whole arrays the launch finds. -/
abbrev whole (c : Dev nD) : S50000x96.Idx → EReal :=
  Cert.Sage.sage (V c main_v9) (V c main_v22) (V c main_arg4) (V c main_arg5) (Cert.Mlp.row (V c main_v23))

/-- The index maps over the grid: the row blocks move with the point, the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- What point t writes back is block t of the layer of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S5000x96) hz, View.ld_unit_zero (S := S96x96) hz, View.ld_unit_zero (S := S1x96) hz]
  rw [pay_eq]
  obtain ⟨e00, e01, e10, e11, e20, e21, e30, e31, e40, e41, e50, e51, ht⟩ := idx_facts t
  funext j
  show Cert.Sage.sage (iblk1 V c 0 t) (iblk1 V c 1 t) (iblk1 V c 2 t) (iblk1 V c 3 t) (Cert.Mlp.row (iblk1 V c 4 t)) j
    = whole V c (((cfg1.win 5).blk t).view.emb j)
  refine point (V c main_v9) (V c main_v22) (V c main_arg4) (V c main_arg5) (V c main_v23) _ _ _ _ _ j _
    (fun k => ?_) (fun k => ?_) ?_ ?_ ?_ ?_
  · show V c main_v9 (((cfg1.win 0).blk t).view.emb (ix2 (j 0) k)) = V c main_v9 (ix2 ((((cfg1.win 5).blk t).view.emb j) 0) k)
    refine congrArg (V c main_v9) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 96 + 1 * k.val = k.val; omega
  · show V c main_v22 (((cfg1.win 1).blk t).view.emb (ix2 (j 0) k)) = V c main_v22 (ix2 ((((cfg1.win 5).blk t).view.emb j) 0) k)
    refine congrArg (V c main_v22) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 96 + 1 * k.val = k.val; omega
  · funext y
    show V c main_arg4 (((cfg1.win 2).blk t).view.emb y) = V c main_arg4 y
    refine congrArg (V c main_arg4) (funext fun a => Fin.ext ?_)
    match a with
    | ⟨0, _⟩ => show win1_2.index t (0 : Fin 2) * 96 + 1 * (y 0).val = (y 0).val; omega
    | ⟨1, _⟩ => show win1_2.index t (1 : Fin 2) * 96 + 1 * (y 1).val = (y 1).val; omega
  · funext y
    show V c main_arg5 (((cfg1.win 3).blk t).view.emb y) = V c main_arg5 y
    refine congrArg (V c main_arg5) (funext fun a => Fin.ext ?_)
    match a with
    | ⟨0, _⟩ => show win1_3.index t (0 : Fin 2) * 96 + 1 * (y 0).val = (y 0).val; omega
    | ⟨1, _⟩ => show win1_3.index t (1 : Fin 2) * 96 + 1 * (y 1).val = (y 1).val; omega
  · funext y
    show V c main_v23 (((cfg1.win 4).blk t).view.emb y) = V c main_v23 y
    refine congrArg (V c main_v23) (funext fun a => Fin.ext ?_)
    match a with
    | ⟨0, _⟩ => show win1_4.index t (0 : Fin 2) * 1 + 1 * (y 0).val = (y 0).val; omega
    | ⟨1, _⟩ => show win1_4.index t (1 : Fin 2) * 96 + 1 * (y 1).val = (y 1).val; omega
  · refine Fin.ext ?_
    show (j 1).val = win1_5.index t (1 : Fin 2) * 96 + 1 * (j 1).val
    omega

/-- An index of the array is in point t's block iff each coordinate is in the block's range on its axis. -/
theorem mem_blk (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v24).slice (win1_5.rect t)).set ↔ _
  rw [View.set_slice_whole, Rect.mem_set_unit]
  exact Iff.rfl

/-- Every block of rows is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- The ten blocks of 5000 rows tile the 50000 rows: row n is in block n / 5000. -/
theorem cover (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 96 ≤ (i 1).val ∧ (i 1).val < win1_5.index t (1 : Fin 2) * 96 + 96; omega

/-- The region's output array after its ten points: the layer of the arrays the region found. -/
theorem final (c : Dev nD) : (dat1 V c).arrAt 5 cfg1.N = whole V c :=
  (dat1 V c).arrAt_eq_of_cover 5 (whole V c) (fun t _ => flushed_eq V c t) cover

end Cert.KernelIdeal.Layer1

end
-- ==== Proof.Layer2.lean ====
/-
  One dense-layer launch read as a value: what its output array holds after its ten grid points.  Each point reads a
  block of 5000 node rows of the features and of their neighbourhood means, the two whole 96 x 96 weight matrices and
  the one-row bias, and writes the layer's block of rows.  The body's arithmetic is the layer function of its blocks;
  an entry of the layer depends only on its own row, so what point t writes back is block t of the layer of the whole
  arrays; and the ten blocks tile the 50000 rows (row n lies in block n / 5000), so the output array ends as the
  layer of the arrays the launch found.
-/
import proofs.«416371_j28604482191526_1_alg».proof.Proof.KernelIdealFrame
import proofs.«416371_j28604482191526_1_alg».proof.Proof.SageLayer

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- The offset of every access of the body: the origin. -/
theorem hz : (![0, 0] : Fin 2 → Nat) = fun _ => 0 := funext fun a => by fin_cases a <;> rfl

/-- The body's arithmetic on its blocks is the layer function of the blocks (format changes are the identity on the
    extended reals; the casts are between equal shapes). -/
theorem pay_eq (x0 x1 : Vec Ideal S5000x96 .f32) (x2 x3 : Vec Ideal S96x96 .f32) (x4 : Vec Ideal S1x96 .f32) :
    k2_pay1 x0 x1 x2 x3 x4 = Cert.Sage.sage x0 x1 x2 x3 (Cert.Mlp.row x4) := by
  unfold k2_pay1
  simp only [shapeCast_self]
  exact Cert.Sage.vec_sage dot_S5000x96_S96x96_S5000x96_1_0_0_1_n_n rfl broadcasts_S1x96_S5000x96 x0 x1 x2 x3 x4

/-- One entry of a block against the entry of the whole array it is written back to: the block's row is the
    array's row, the weights and the bias are the arrays themselves, the column is the same. -/
theorem point (X G : S50000x96.Idx → EReal) (Ws Wn : S96x96.Idx → EReal) (B : S1x96.Idx → EReal)
    (x0 x1 : S5000x96.Idx → EReal) (x2 x3 : S96x96.Idx → EReal) (x4 : S1x96.Idx → EReal)
    (y : S5000x96.Idx) (i : S50000x96.Idx)
    (h0 : ∀ k : Fin 96, x0 (ix2 (y 0) k) = X (ix2 (i 0) k))
    (h1 : ∀ k : Fin 96, x1 (ix2 (y 0) k) = G (ix2 (i 0) k))
    (h2 : x2 = Ws) (h3 : x3 = Wn) (h4 : x4 = B) (hq : (y 1 : Fin 96) = (i 1 : Fin 96)) :
    Cert.Sage.sage x0 x1 x2 x3 (Cert.Mlp.row x4) y = Cert.Sage.sage X G Ws Wn (Cert.Mlp.row B) i := by
  subst h2 h3 h4
  have e0 : (∑ k : Fin 96, x0 (ix2 (y 0) k) * x2 (ix2 k (y 1))) = ∑ k : Fin 96, X (ix2 (i 0) k) * x2 (ix2 k (i 1)) :=
    Finset.sum_congr rfl fun k _ => by rw [h0 k, hq]
  have e1 : (∑ k : Fin 96, x1 (ix2 (y 0) k) * x3 (ix2 k (y 1))) = ∑ k : Fin 96, G (ix2 (i 0) k) * x3 (ix2 k (i 1)) :=
    Finset.sum_congr rfl fun k _ => by rw [h1 k, hq]
  show ((∑ k : Fin 96, x0 (ix2 (y 0) k) * x2 (ix2 k (y 1))) + (∑ k : Fin 96, x1 (ix2 (y 0) k) * x3 (ix2 k (y 1)))) + Cert.Mlp.row x4 (y 1)
    = ((∑ k : Fin 96, X (ix2 (i 0) k) * x2 (ix2 k (i 1))) + (∑ k : Fin 96, G (ix2 (i 0) k) * x3 (ix2 k (i 1)))) + Cert.Mlp.row x4 (i 1)
  rw [e0, e1, hq]

/-- The layer of the whole arrays the launch finds. -/
abbrev whole (c : Dev nD) : S50000x96.Idx → EReal :=
  Cert.Sage.sage (V c main_v24) (V c main_v37) (V c main_arg7) (V c main_arg8) (Cert.Mlp.row (V c main_v38))

/-- The index maps over the grid: the row blocks move with the point, the weights and the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- What point t writes back is block t of the layer of the whole arrays. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero hz]
  simp only [View.ld_unit_zero (S := S5000x96) hz, View.ld_unit_zero (S := S96x96) hz, View.ld_unit_zero (S := S1x96) hz]
  rw [pay_eq]
  obtain ⟨e00, e01, e10, e11, e20, e21, e30, e31, e40, e41, e50, e51, ht⟩ := idx_facts t
  funext j
  show Cert.Sage.sage (iblk2 V c 0 t) (iblk2 V c 1 t) (iblk2 V c 2 t) (iblk2 V c 3 t) (Cert.Mlp.row (iblk2 V c 4 t)) j
    = whole V c (((cfg2.win 5).blk t).view.emb j)
  refine point (V c main_v24) (V c main_v37) (V c main_arg7) (V c main_arg8) (V c main_v38) _ _ _ _ _ j _
    (fun k => ?_) (fun k => ?_) ?_ ?_ ?_ ?_
  · show V c main_v24 (((cfg2.win 0).blk t).view.emb (ix2 (j 0) k)) = V c main_v24 (ix2 ((((cfg2.win 5).blk t).view.emb j) 0) k)
    refine congrArg (V c main_v24) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 96 + 1 * k.val = k.val; omega
  · show V c main_v37 (((cfg2.win 1).blk t).view.emb (ix2 (j 0) k)) = V c main_v37 (ix2 ((((cfg2.win 5).blk t).view.emb j) 0) k)
    refine congrArg (V c main_v37) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 96 + 1 * k.val = k.val; omega
  · funext y
    show V c main_arg7 (((cfg2.win 2).blk t).view.emb y) = V c main_arg7 y
    refine congrArg (V c main_arg7) (funext fun a => Fin.ext ?_)
    match a with
    | ⟨0, _⟩ => show win2_2.index t (0 : Fin 2) * 96 + 1 * (y 0).val = (y 0).val; omega
    | ⟨1, _⟩ => show win2_2.index t (1 : Fin 2) * 96 + 1 * (y 1).val = (y 1).val; omega
  · funext y
    show V c main_arg8 (((cfg2.win 3).blk t).view.emb y) = V c main_arg8 y
    refine congrArg (V c main_arg8) (funext fun a => Fin.ext ?_)
    match a with
    | ⟨0, _⟩ => show win2_3.index t (0 : Fin 2) * 96 + 1 * (y 0).val = (y 0).val; omega
    | ⟨1, _⟩ => show win2_3.index t (1 : Fin 2) * 96 + 1 * (y 1).val = (y 1).val; omega
  · funext y
    show V c main_v38 (((cfg2.win 4).blk t).view.emb y) = V c main_v38 y
    refine congrArg (V c main_v38) (funext fun a => Fin.ext ?_)
    match a with
    | ⟨0, _⟩ => show win2_4.index t (0 : Fin 2) * 1 + 1 * (y 0).val = (y 0).val; omega
    | ⟨1, _⟩ => show win2_4.index t (1 : Fin 2) * 96 + 1 * (y 1).val = (y 1).val; omega
  · refine Fin.ext ?_
    show (j 1).val = win2_5.index t (1 : Fin 2) * 96 + 1 * (j 1).val
    omega

/-- An index of the array is in point t's block iff each coordinate is in the block's range on its axis. -/
theorem mem_blk (t : Fin cfg2.N) (i : S50000x96.Idx) :
    i ∈ ((cfg2.win 5).blk t).view.set ↔ ∀ a : Fin 2, win2_5.index t a * S5000x96.size a ≤ (i a).val ∧ (i a).val < win2_5.index t a * S5000x96.size a + S5000x96.size a := by
  show i ∈ ((View.whole main_v39).slice (win2_5.rect t)).set ↔ _
  rw [View.set_slice_whole, Rect.mem_set_unit]
  exact Iff.rfl

/-- Every block of rows is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- The ten blocks of 5000 rows tile the 50000 rows: row n is in block n / 5000. -/
theorem cover (i : S50000x96.Idx) : ∃ t : Fin cfg2.N, (cfg2.win 5).flush t = true ∧ i ∈ ((cfg2.win 5).blk t).view.set := by
  have hi0 : (i 0).val < 50000 := (i 0).isLt
  have hi1 : (i 1).val < 96 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 96 ≤ (i 1).val ∧ (i 1).val < win2_5.index t (1 : Fin 2) * 96 + 96; omega

/-- The region's output array after its ten points: the layer of the arrays the region found. -/
theorem final (c : Dev nD) : (dat2 V c).arrAt 5 cfg2.N = whole V c :=
  (dat2 V c).arrAt_eq_of_cover 5 (whole V c) (fun t _ => flushed_eq V c t) cover

end Cert.KernelIdeal.Layer2

end
-- ==== Proof.Layer3.lean ====
/-
  One dense-layer launch read as a value: what its output array holds after its ten grid points.  Each point reads a
  block of 5000 node rows of the features and of their neighbourhood means, the two whole 96 x 96 weight matrices and
  the one-row bias, and writes the layer's block of rows.  The body's arithmetic is the layer function of its blocks;
  an entry of the layer depends only on its own row, so what point t writes back is block t of the layer of the whole
  arrays; and the ten blocks tile the 50000 rows (row n lies in block n / 5000), so the output array ends as the
  layer of the arrays the launch found.
-/
import proofs.«416371_j28604482191526_1_alg».proof.Proof.KernelIdealFrame
import proofs.«416371_j28604482191526_1_alg».proof.Proof.SageLayer

set_option maxRecDepth 16384

noncomputable section

namespace Cert.KernelIdeal.Layer3

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- The offset of every access of the body: the origin. -/
theorem hz : (![0, 0] : Fin 2 → Nat) = fun _ => 0 := funext fun a => by fin_cases a <;> rfl

/-- The body's arithmetic on its blocks is the layer function of the blocks (format changes are the identity on the
    extended reals; the casts are between equal shapes). -/
theorem pay_eq (x0 x1 : Vec Ideal S5000x96 .f32) (x2 x3 : Vec Ideal S96x96 .f32) (x4 : Vec Ideal S1x96 .f32) :
    k3_pay1 x0 x1 x2 x3 x4 = Cert.Sage.sage x0 x1 x2 x3 (Cert.Mlp.row x4) := by
  unfold k3_pay1
  simp only [shapeCast_self]
  exact Cert.Sage.vec_sage dot_S5000x96_S96x96_S5000x96_1_0_0_1_n_n rfl broadcasts_S1x96_S5000x96 x0 x1 x2 x3 x4

/-- One entry of a block against the entry of the whole array it is written back to: the block's row is the
    array's row, the weights and the bias are the arrays themselves, the column is the same. -/
theorem point (X G : S50000x96.Idx → EReal) (Ws Wn : S96x96.Idx → EReal) (B : S1x96.Idx → EReal)
    (x0 x1 : S5000x96.Idx → EReal) (x2 x3 : S96x96.Idx → EReal) (x4 : S1x96.Idx → EReal)
    (y : S5000x96.Idx) (i : S50000x96.Idx)
    (h0 : ∀ k : Fin 96, x0 (ix2 (y 0) k) = X (ix2 (i 0) k))
    (h1 : ∀ k : Fin 96, x1 (ix2 (y 0) k) = G (ix2 (i 0) k))
    (h2 : x2 = Ws) (h3 : x3 = Wn) (h4 : x4 = B) (hq : (y 1 : Fin 96) = (i 1 : Fin 96)) :
    Cert.Sage.sage x0 x1 x2 x3 (Cert.Mlp.row x4) y = Cert.Sage.sage X G Ws Wn (Cert.Mlp.row B) i := by
  subst h2 h3 h4
  have e0 : (∑ k : Fin 96, x0 (ix2 (y 0) k) * x2 (ix2 k (y 1))) = ∑ k : Fin 96, X (ix2 (i 0) k) * x2 (ix2 k (i 1)) :=
    Finset.sum_congr rfl fun k _ => by rw [h0 k, hq]
  have e1 : (∑ k : Fin 96, x1 (ix2 (y 0) k) * x3 (ix2 k (y 1))) = ∑ k : Fin 96, G (ix2 (i 0) k) * x3 (ix2 k (i 1)) :=
    Finset.sum_congr rfl fun k _ => by rw [h1 k, hq]
  show ((∑ k : Fin 96, x0 (ix2 (y 0) k) * x2 (ix2 k (y 1))) + (∑ k : Fin 96, x1 (ix2 (y 0) k) * x3 (ix2 k (y 1)))) + Cert.Mlp.row x4 (y 1)
    = ((∑ k : Fin 96, X (ix2 (i 0) k) * x2 (ix2 k (i 1))) + (∑ k : Fin 96, G (ix2 (i 0) k) * x3 (ix2 k (i 1)))) + Cert.Mlp.row x4 (i 1)
  rw [e0, e1, hq]

/-- The layer of the whole arrays the launch finds. -/
abbrev whole (c : Dev nD) : S50000x96.Idx → EReal :=
  Cert.Sage.sage (V c main_v39) (V c main_v52) (V c main_arg10) (V c main_arg11) (Cert.Mlp.row (V c main_v53))

/-- The index maps over the grid: the row blocks move with the point, the weights and the bias stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 10 :=
  (by decide +kernel : ∀ t : Fin grid3.N, _)

/-- What point t writes back is block t of the layer of the whole arrays. -/
theorem flushed_eq (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero hz]
  simp only [View.ld_unit_zero (S := S5000x96) hz, View.ld_unit_zero (S := S96x96) hz, View.ld_unit_zero (S := S1x96) hz]
  rw [pay_eq]
  obtain ⟨e00, e01, e10, e11, e20, e21, e30, e31, e40, e41, e50, e51, ht⟩ := idx_facts t
  funext j
  show Cert.Sage.sage (iblk3 V c 0 t) (iblk3 V c 1 t) (iblk3 V c 2 t) (iblk3 V c 3 t) (Cert.Mlp.row (iblk3 V c 4 t)) j
    = whole V c (((cfg3.win 5).blk t).view.emb j)
  refine point (V c main_v39) (V c main_v52) (V c main_arg10) (V c main_arg11) (V c main_v53) _ _ _ _ _ j _
    (fun k => ?_) (fun k => ?_) ?_ ?_ ?_ ?_
  · show V c main_v39 (((cfg3.win 0).blk t).view.emb (ix2 (j 0) k)) = V c main_v39 (ix2 ((((cfg3.win 5).blk t).view.emb j) 0) k)
    refine congrArg (V c main_v39) (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 96 + 1 * k.val = k.val; omega
  · show V c main_v52 (((cfg3.win 1).blk t).view.emb (ix2 (j 0) k)) = V c main_v52 (ix2 ((((cfg3.win 5).blk t).view.emb j) 0) k)
    refine congrArg (V c main_v52) (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 96 + 1 * k.val = k.val; omega
  · funext y
    show V c main_arg10 (((cfg3.win 2).blk t).view.emb y) = V c main_arg10 y
    refine congrArg (V c main_arg10) (funext fun a => Fin.ext ?_)
    match a with
    | ⟨0, _⟩ => show win3_2.index t (0 : Fin 2) * 96 + 1 * (y 0).val = (y 0).val; omega
    | ⟨1, _⟩ => show win3_2.index t (1 : Fin 2) * 96 + 1 * (y 1).val = (y 1).val; omega
  · funext y
    show V c main_arg11 (((cfg3.win 3).blk t).view.emb y) = V c main_arg11 y
    refine congrArg (V c main_arg11) (funext fun a => Fin.ext ?_)
    match a with
    | ⟨0, _⟩ => show win3_3.index t (0 : Fin 2) * 96 + 1 * (y 0).val = (y 0).val; omega
    | ⟨1, _⟩ => show win3_3.index t (1 : Fin 2) * 96 + 1 * (y 1).val = (y 1).val; omega
  · funext y
    show V c main_v53 (((cfg3.win 4).blk t).view.emb y) = V c main_v53 y
    refine congrArg (V c main_v53) (funext fun a => Fin.ext ?_)
    match a with
    | ⟨0, _⟩ => show win3_4.index t (0 : Fin 2) * 1 + 1 * (y 0).val = (y 0).val; omega
    | ⟨1, _⟩ => show win3_4.index t (1 : Fin 2) * 96 + 1 * (y 1).val = (y 1).val; omega
  · refine Fin.ext ?_
    show (j 1).val = win3_5.index t (1 : Fin 2) * 96 + 1 * (j 1).val
    omega

/-- An index of the array is in point t's block iff each coordinate is in the block's range on its axis. -/
theorem mem_blk (t : Fin cfg3.N) (i : S50000x96.Idx) :
    i ∈ ((cfg3.win 5).blk t).view.set ↔ ∀ a : Fin 2, win3_5.index t a * S5000x96.size a ≤ (i a).val ∧ (i a).val < win3_5.index t a * S5000x96.size a + S5000x96.size a := by
  show i ∈ ((View.whole main_v54).slice (win3_5.rect t)).set ↔ _
  rw [View.set_slice_whole, Rect.mem_set_unit]
  exact Iff.rfl

/-- Every block of rows is some point's. -/
theorem idx_onto : ∀ q0 : Fin 10, ∃ t : Fin cfg3.N, win3_5.index t = ![q0.val, 0] :=
  (by decide +kernel : ∀ q0 : Fin 10, ∃ t : Fin grid3.N, win3_5.index t = ![q0.val, 0])

/-- The ten blocks of 5000 rows tile the 50000 rows: row n is in block n / 5000. -/
theorem cover (i : S50000x96.Idx) : ∃ t : Fin cfg3.N, (cfg3.win 5).flush t = true ∧ i ∈ ((cfg3.win 5).blk t).view.set := by
  have hi0 : (i 0).val < 50000 := (i 0).isLt
  have hi1 : (i 1).val < 96 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 96 ≤ (i 1).val ∧ (i 1).val < win3_5.index t (1 : Fin 2) * 96 + 96; omega

/-- The region's output array after its ten points: the layer of the arrays the region found. -/
theorem final (c : Dev nD) : (dat3 V c).arrAt 5 cfg3.N = whole V c :=
  (dat3 V c).arrAt_eq_of_cover 5 (whole V c) (fun t _ => flushed_eq V c t) cover

end Cert.KernelIdeal.Layer3

end
-- ==== Proof.Chain.lean ====
/-
  The idealized kernel program's result, read through the eight boundaries of its @main (host stretch, launch, host
  stretch, launch, …).  At every boundary the buffers a later segment reads are named: the argument arrays still hold
  their launch contents (no segment writes one), the in-degree's reciprocal is what the first stretch computed, and the
  feature array after each launch is one function of the arguments:

      x0 = rows of the table picked by the index words            (launch 1, under 'every index word < 64')
      x(k+1) = sage x(k) (mean x(k)) Ws(k) Wn(k) b(k)             (launches 2, 3, 4)

  with `mean` the neighbourhood mean of the host stretch before the launch.
-/
import proofs.«416371_j28604482191526_1_alg».proof.Proof.KernelIdealFrame
import proofs.«416371_j28604482191526_1_alg».proof.Proof.HostSteps
import proofs.«416371_j28604482191526_1_alg».proof.Proof.Embed
import proofs.«416371_j28604482191526_1_alg».proof.Proof.Layer1
import proofs.«416371_j28604482191526_1_alg».proof.Proof.Layer2
import proofs.«416371_j28604482191526_1_alg».proof.Proof.Layer3
import proofs.«416371_j28604482191526_1_alg».proof.Proof.SageLayer

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg) (c : Dev nD)

/-- The buffers of the list hold their launch contents. -/
def ArgsAt (W : Valuation τ sig (Elt Ideal)) (S : List (Ref sig .tc)) : Prop :=
  ∀ b ∈ S, W (Proc.devRef .tc b) = m ((c : Thread nD τ).loc b)

/-! ## The argument arrays at each boundary -/

theorem args1 : ArgsAt m c (W1 m ρ c) [main_arg1, main_arg2, main_arg3, main_arg4, main_arg5, main_arg6, main_arg7, main_arg8, main_arg9, main_arg10, main_arg11, main_arg12] :=
  fun b hb => Host.first_keeps (W0 m ρ c) b hb

theorem args2 : ArgsAt m c (W2 m ρ c) [main_arg1, main_arg2, main_arg4, main_arg5, main_arg6, main_arg7, main_arg8, main_arg9, main_arg10, main_arg11, main_arg12] := by
  intro b hb
  simp only [List.mem_cons, List.mem_nil_iff, or_false] at hb
  rcases hb with rfl | rfl | rfl | rfl | rfl | rfl | rfl | rfl | rfl | rfl | rfl
  all_goals exact (W2_of_ne m ρ c _ (by decide)).trans (args1 m ρ c _ (by decide))

theorem args3 : ArgsAt m c (W3 m ρ c) [main_arg1, main_arg2, main_arg4, main_arg5, main_arg7, main_arg8, main_arg9, main_arg10, main_arg11, main_arg12] := by
  intro b hb
  simp only [List.mem_cons, List.mem_nil_iff, or_false] at hb
  rcases hb with rfl | rfl | rfl | rfl | rfl | rfl | rfl | rfl | rfl | rfl
  all_goals exact (Host.second_keeps (W2 m ρ c) _ (by decide)).trans (args2 m ρ c _ (by decide))

theorem args4 : ArgsAt m c (W4 m ρ c) [main_arg1, main_arg2, main_arg7, main_arg8, main_arg9, main_arg10, main_arg11, main_arg12] := by
  intro b hb
  simp only [List.mem_cons, List.mem_nil_iff, or_false] at hb
  rcases hb with rfl | rfl | rfl | rfl | rfl | rfl | rfl | rfl
  all_goals exact (W4_of_ne m ρ c _ (by decide)).trans (args3 m ρ c _ (by decide))

theorem args5 : ArgsAt m c (W5 m ρ c) [main_arg1, main_arg2, main_arg7, main_arg8, main_arg10, main_arg11, main_arg12] := by
  intro b hb
  simp only [List.mem_cons, List.mem_nil_iff, or_false] at hb
  rcases hb with rfl | rfl | rfl | rfl | rfl | rfl | rfl
  all_goals exact (Host.third_keeps (W4 m ρ c) _ (by decide)).trans (args4 m ρ c _ (by decide))

theorem args6 : ArgsAt m c (W6 m ρ c) [main_arg1, main_arg2, main_arg10, main_arg11, main_arg12] := by
  intro b hb
  simp only [List.mem_cons, List.mem_nil_iff, or_false] at hb
  rcases hb with rfl | rfl | rfl | rfl | rfl
  all_goals exact (W6_of_ne m ρ c _ (by decide)).trans (args5 m ρ c _ (by decide))

theorem args7 : ArgsAt m c (W7 m ρ c) [main_arg10, main_arg11] := by
  intro b hb
  simp only [List.mem_cons, List.mem_nil_iff, or_false] at hb
  rcases hb with rfl | rfl
  all_goals exact (Host.fourth_keeps (W6 m ρ c) _ (by decide)).trans (args6 m ρ c _ (by decide))

/-! ## The in-degree's reciprocal at each boundary -/

theorem inv1 : W1 m ρ c (Proc.devRef .tc main_v7) = Host.invDeg (F := Ideal) (m ((c : Thread nD τ).loc main_arg2)) := Host.first_inv (W0 m ρ c)
theorem inv2 : W2 m ρ c (Proc.devRef .tc main_v7) = Host.invDeg (F := Ideal) (m ((c : Thread nD τ).loc main_arg2)) := (W2_of_ne m ρ c main_v7 (by decide)).trans (inv1 m ρ c)
theorem inv3 : W3 m ρ c (Proc.devRef .tc main_v7) = Host.invDeg (F := Ideal) (m ((c : Thread nD τ).loc main_arg2)) := (Host.second_keeps (W2 m ρ c) main_v7 (by decide)).trans (inv2 m ρ c)
theorem inv4 : W4 m ρ c (Proc.devRef .tc main_v7) = Host.invDeg (F := Ideal) (m ((c : Thread nD τ).loc main_arg2)) := (W4_of_ne m ρ c main_v7 (by decide)).trans (inv3 m ρ c)
theorem inv5 : W5 m ρ c (Proc.devRef .tc main_v7) = Host.invDeg (F := Ideal) (m ((c : Thread nD τ).loc main_arg2)) := (Host.third_keeps (W4 m ρ c) main_v7 (by decide)).trans (inv4 m ρ c)
theorem inv6 : W6 m ρ c (Proc.devRef .tc main_v7) = Host.invDeg (F := Ideal) (m ((c : Thread nD τ).loc main_arg2)) := (W6_of_ne m ρ c main_v7 (by decide)).trans (inv5 m ρ c)

/-! ## The feature array after each launch -/

/-- Row n of the table lookup: the table's row at the n-th index word (clamped at the last row). -/
def feat0 (deg : IVec S50000 32) (emb : S64x96.Idx → EReal) : S50000x96.Idx → EReal :=
  fun i => emb (ix2 ⟨min (deg (ix1 (i 0))).toNat 63, by omega⟩ (i 1))

/-- One layer over the whole array: the dense update of x and of its neighbourhood mean. -/
def step (x : S50000x96.Idx → EReal) (e1 e2 : IVec S800000 32) (Ws Wn : S96x96.Idx → EReal) (b : S96.Idx → EReal) :
    S50000x96.Idx → EReal :=
  Cert.Sage.sage x (Host.agg (F := Ideal) x e1 e2 (Host.invDeg e2)) Ws Wn (Cert.Mlp.vec b)

/-- After launch 1: the table lookup, when every index word is below 64. -/
theorem feat1 (h : ∀ p : Fin 50000, ((m ((c : Thread nD τ).loc main_arg0)) (ix1 p)).toNat < 64) :
    W2 m ρ c (Proc.devRef .tc main_v9) = feat0 (m ((c : Thread nD τ).loc main_arg0)) (m ((c : Thread nD τ).loc main_arg3)) := by
  have hcol : ∀ p : Fin 50000, W1 m ρ c (Proc.devRef .tc main_v8) (ix2 p 0) = (m ((c : Thread nD τ).loc main_arg0)) (ix1 p) := fun p => by
    rw [show W1 m ρ c (Proc.devRef .tc main_v8) = shapeCast S50000x1 (m ((c : Thread nD τ).loc main_arg0)) shapeCasts_S50000_S50000x1 from Host.first_col (W0 m ρ c)]
    exact shapeCast_apply _ _ (ix2 p 0) (ix1 p) (by
      rw [Shape.rowMajor_val_two, Shape.rowMajor_val_one]; show p.val = p.val * 1 + 0; omega)
  have htab : W1 m ρ c (Proc.devRef .tc main_arg3) = (m ((c : Thread nD τ).loc main_arg3)) := args1 m ρ c main_arg3 (by decide)
  refine (W2_arr m ρ c 2).trans ((Embed.final (V1 m ρ) c fun p => by
    show (W1 m ρ c (Proc.devRef .tc main_v8) (ix2 p 0)).toNat < 64
    rw [hcol p]; exact h p).trans ?_)
  funext i
  show W1 m ρ c (Proc.devRef .tc main_arg3) (ix2 ⟨min (W1 m ρ c (Proc.devRef .tc main_v8) (ix2 (i 0) 0)).toNat 63, _⟩ (i 1))
    = (m ((c : Thread nD τ).loc main_arg3)) (ix2 ⟨min ((m ((c : Thread nD τ).loc main_arg0)) (ix1 (i 0))).toNat 63, _⟩ (i 1))
  rw [htab]
  exact congrArg (fun r : Fin 64 => (m ((c : Thread nD τ).loc main_arg3)) (ix2 r (i 1))) (Fin.ext (by
    show min (W1 m ρ c (Proc.devRef .tc main_v8) (ix2 (i 0) 0)).toNat 63 = min ((m ((c : Thread nD τ).loc main_arg0)) (ix1 (i 0))).toNat 63
    rw [hcol (i 0)]))

/-- After launch 2: the layer of what launch 2 found — the features as the launch before left them, their
    neighbourhood mean, and this layer's weights and bias as launched. -/
theorem feat2 (x : S50000x96.Idx → EReal) (hx : W2 m ρ c (Proc.devRef .tc main_v9) = x) :
    W4 m ρ c (Proc.devRef .tc main_v24) = step x (m ((c : Thread nD τ).loc main_arg1)) (m ((c : Thread nD τ).loc main_arg2)) (m ((c : Thread nD τ).loc main_arg4)) (m ((c : Thread nD τ).loc main_arg5)) (m ((c : Thread nD τ).loc main_arg6)) := by
  have hX : W3 m ρ c (Proc.devRef .tc main_v9) = x := (Host.second_keeps (W2 m ρ c) main_v9 (by decide)).trans hx
  have hG : W3 m ρ c (Proc.devRef .tc main_v22) = Host.agg (F := Ideal) x (m ((c : Thread nD τ).loc main_arg1)) (m ((c : Thread nD τ).loc main_arg2)) (Host.invDeg (F := Ideal) (m ((c : Thread nD τ).loc main_arg2))) :=
    (Host.second_agg (W2 m ρ c)).trans (by rw [hx, args2 m ρ c main_arg1 (by decide), args2 m ρ c main_arg2 (by decide), inv2 m ρ c])
  have hWs : W3 m ρ c (Proc.devRef .tc main_arg4) = (m ((c : Thread nD τ).loc main_arg4)) := args3 m ρ c main_arg4 (by decide)
  have hWn : W3 m ρ c (Proc.devRef .tc main_arg5) = (m ((c : Thread nD τ).loc main_arg5)) := args3 m ρ c main_arg5 (by decide)
  have hB : W3 m ρ c (Proc.devRef .tc main_v23) = shapeCast S1x96 (m ((c : Thread nD τ).loc main_arg6)) shapeCasts_S96_S1x96 :=
    (Host.second_bias (W2 m ρ c)).trans (by rw [args2 m ρ c main_arg6 (by decide)])
  refine (W4_arr m ρ c 5).trans ((Layer1.final (V3 m ρ) c).trans ?_)
  show Cert.Sage.sage (W3 m ρ c (Proc.devRef .tc main_v9)) (W3 m ρ c (Proc.devRef .tc main_v22)) (W3 m ρ c (Proc.devRef .tc main_arg4)) (W3 m ρ c (Proc.devRef .tc main_arg5))
      (Cert.Mlp.row (W3 m ρ c (Proc.devRef .tc main_v23))) = _
  rw [hX, hG, hWs, hWn, hB, Cert.Mlp.row_shapeCast]
  rfl

/-- After launch 3: the layer of what launch 3 found — the features as the launch before left them, their
    neighbourhood mean, and this layer's weights and bias as launched. -/
theorem feat3 (x : S50000x96.Idx → EReal) (hx : W4 m ρ c (Proc.devRef .tc main_v24) = x) :
    W6 m ρ c (Proc.devRef .tc main_v39) = step x (m ((c : Thread nD τ).loc main_arg1)) (m ((c : Thread nD τ).loc main_arg2)) (m ((c : Thread nD τ).loc main_arg7)) (m ((c : Thread nD τ).loc main_arg8)) (m ((c : Thread nD τ).loc main_arg9)) := by
  have hX : W5 m ρ c (Proc.devRef .tc main_v24) = x := (Host.third_keeps (W4 m ρ c) main_v24 (by decide)).trans hx
  have hG : W5 m ρ c (Proc.devRef .tc main_v37) = Host.agg (F := Ideal) x (m ((c : Thread nD τ).loc main_arg1)) (m ((c : Thread nD τ).loc main_arg2)) (Host.invDeg (F := Ideal) (m ((c : Thread nD τ).loc main_arg2))) :=
    (Host.third_agg (W4 m ρ c)).trans (by rw [hx, args4 m ρ c main_arg1 (by decide), args4 m ρ c main_arg2 (by decide), inv4 m ρ c])
  have hWs : W5 m ρ c (Proc.devRef .tc main_arg7) = (m ((c : Thread nD τ).loc main_arg7)) := args5 m ρ c main_arg7 (by decide)
  have hWn : W5 m ρ c (Proc.devRef .tc main_arg8) = (m ((c : Thread nD τ).loc main_arg8)) := args5 m ρ c main_arg8 (by decide)
  have hB : W5 m ρ c (Proc.devRef .tc main_v38) = shapeCast S1x96 (m ((c : Thread nD τ).loc main_arg9)) shapeCasts_S96_S1x96 :=
    (Host.third_bias (W4 m ρ c)).trans (by rw [args4 m ρ c main_arg9 (by decide)])
  refine (W6_arr m ρ c 5).trans ((Layer2.final (V5 m ρ) c).trans ?_)
  show Cert.Sage.sage (W5 m ρ c (Proc.devRef .tc main_v24)) (W5 m ρ c (Proc.devRef .tc main_v37)) (W5 m ρ c (Proc.devRef .tc main_arg7)) (W5 m ρ c (Proc.devRef .tc main_arg8))
      (Cert.Mlp.row (W5 m ρ c (Proc.devRef .tc main_v38))) = _
  rw [hX, hG, hWs, hWn, hB, Cert.Mlp.row_shapeCast]
  rfl

/-- After launch 4: the layer of what launch 4 found — the features as the launch before left them, their
    neighbourhood mean, and this layer's weights and bias as launched. -/
theorem feat4 (x : S50000x96.Idx → EReal) (hx : W6 m ρ c (Proc.devRef .tc main_v39) = x) :
    W8 m ρ c (Proc.devRef .tc main_v54) = step x (m ((c : Thread nD τ).loc main_arg1)) (m ((c : Thread nD τ).loc main_arg2)) (m ((c : Thread nD τ).loc main_arg10)) (m ((c : Thread nD τ).loc main_arg11)) (m ((c : Thread nD τ).loc main_arg12)) := by
  have hX : W7 m ρ c (Proc.devRef .tc main_v39) = x := (Host.fourth_keeps (W6 m ρ c) main_v39 (by decide)).trans hx
  have hG : W7 m ρ c (Proc.devRef .tc main_v52) = Host.agg (F := Ideal) x (m ((c : Thread nD τ).loc main_arg1)) (m ((c : Thread nD τ).loc main_arg2)) (Host.invDeg (F := Ideal) (m ((c : Thread nD τ).loc main_arg2))) :=
    (Host.fourth_agg (W6 m ρ c)).trans (by rw [hx, args6 m ρ c main_arg1 (by decide), args6 m ρ c main_arg2 (by decide), inv6 m ρ c])
  have hWs : W7 m ρ c (Proc.devRef .tc main_arg10) = (m ((c : Thread nD τ).loc main_arg10)) := args7 m ρ c main_arg10 (by decide)
  have hWn : W7 m ρ c (Proc.devRef .tc main_arg11) = (m ((c : Thread nD τ).loc main_arg11)) := args7 m ρ c main_arg11 (by decide)
  have hB : W7 m ρ c (Proc.devRef .tc main_v53) = shapeCast S1x96 (m ((c : Thread nD τ).loc main_arg12)) shapeCasts_S96_S1x96 :=
    (Host.fourth_bias (W6 m ρ c)).trans (by rw [args6 m ρ c main_arg12 (by decide)])
  refine (W8_arr m ρ c 5).trans ((Layer3.final (V7 m ρ) c).trans ?_)
  show Cert.Sage.sage (W7 m ρ c (Proc.devRef .tc main_v39)) (W7 m ρ c (Proc.devRef .tc main_v52)) (W7 m ρ c (Proc.devRef .tc main_arg10)) (W7 m ρ c (Proc.devRef .tc main_arg11))
      (Cert.Mlp.row (W7 m ρ c (Proc.devRef .tc main_v53))) = _
  rw [hX, hG, hWs, hWn, hB, Cert.Mlp.row_shapeCast]
  rfl

/-- THE RESULT BUFFER after the run: three layers over the table lookup. -/
theorem result (h : ∀ p : Fin 50000, ((m ((c : Thread nD τ).loc main_arg0)) (ix1 p)).toNat < 64) :
    W8 m ρ c (Proc.devRef .tc main_v54)
      = step (step (step (feat0 (m ((c : Thread nD τ).loc main_arg0)) (m ((c : Thread nD τ).loc main_arg3)))
            (m ((c : Thread nD τ).loc main_arg1)) (m ((c : Thread nD τ).loc main_arg2)) (m ((c : Thread nD τ).loc main_arg4)) (m ((c : Thread nD τ).loc main_arg5)) (m ((c : Thread nD τ).loc main_arg6)))
          (m ((c : Thread nD τ).loc main_arg1)) (m ((c : Thread nD τ).loc main_arg2)) (m ((c : Thread nD τ).loc main_arg7)) (m ((c : Thread nD τ).loc main_arg8)) (m ((c : Thread nD τ).loc main_arg9)))
        (m ((c : Thread nD τ).loc main_arg1)) (m ((c : Thread nD τ).loc main_arg2)) (m ((c : Thread nD τ).loc main_arg10)) (m ((c : Thread nD τ).loc main_arg11)) (m ((c : Thread nD τ).loc main_arg12)) :=
  feat4 m ρ c _ (feat3 m ρ c _ (feat2 m ρ c _ (feat1 m ρ c h)))

end Cert.KernelIdeal.Chain

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.RefValue.lean ====
/-
  The reference's result, stage by stage.  Its run's term is one long composition; here it is cut where the
  mathematics cuts it: the table lookup  emb[degree] , the in-degree's reciprocal, the neighbourhood mean, and three
  dense layers  x @ Ws + mean(x) @ Wn + b .  The cut is by unfolding only (any float family).  At the extended reals
  each dense layer is the function `Cert.Sage.sage` of its operands, and the lookup reads row degree[n] of the table
  when every degree word is below the table's 64 rows (negative-index wrap and clamp then do nothing).
-/
import proofs.«416371_j28604482191526_1_alg».proof.Proof.Gen.ReferenceIdeal.Run
import proofs.«416371_j28604482191526_1_alg».proof.Proof.SageLayer
import proofs.«416371_j28604482191526_1_alg».proof.Proof.LibRowGather

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value

section Stages
variable {F : FTy → Type} [FloatOps F]

/-- emb[degree]: the start indices are the degree words with negative ones wrapped by the table's 64 rows. -/
def lookup (a0 : IVec S50000 32) (emb : FVec F S64x96 .f32) : FVec F S50000x96 .f32 :=
  Host.gather gather_S64x96_S50000x1_S50000x96_1_0_n_n_0_1_196 emb
    (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 64#32))) a0))

/-- 1 / max(in-degree, 1). -/
def invDeg (e2 : IVec S800000 32) : FVec F S50000 .f32 :=
  Host.divf (broadcastInDim S50000 ![] bcast_S_S50000 (constant S_ .f32 0x3F800000#32))
    (maximumf (Host.scatterAdd scatter_S50000_S800000x1_S800000_n_0_0_1
        (broadcastInDim S50000 ![] bcast_S_S50000 (constant S_ .f32 0x00000000#32))
        (broadcastInDim S800000x1 ![0] bcast_S800000_S800000x1_0 e2)
        (broadcastInDim S800000 ![] bcast_S_S800000 (constant S_ .f32 0x3F800000#32)))
      (broadcastInDim S50000 ![] bcast_S_S50000 (constant S_ .f32 0x3F800000#32)))

/-- The neighbourhood mean of the rows of x. -/
def agg (x : FVec F S50000x96 .f32) (e1 e2 : IVec S800000 32) (inv : FVec F S50000 .f32) : FVec F S50000x96 .f32 :=
  mulf (Host.scatterAdd scatter_S50000x96_S800000x1_S800000x96_1_0_0_1
      (broadcastInDim S50000x96 ![] bcast_S_S50000x96 (constant S_ .f32 0x00000000#32))
      (broadcastInDim S800000x1 ![0] bcast_S800000_S800000x1_0 e2)
      (Host.gather gather_S50000x96_S800000x1_S800000x96_1_0_n_n_0_1_196 x
        (broadcastInDim S800000x1 ![0] bcast_S800000_S800000x1_0
          (select (cmpi .slt e1 (broadcastInDim S800000 ![] bcast_S_S800000 (constantI S_ 32 0#32)))
            (addi e1 (broadcastInDim S800000 ![] bcast_S_S800000 (constantI S_ 32 50000#32))) e1))))
    (broadcastInDim S50000x96 ![0, 1] bcast_S50000x1_S50000x96_0_1 (broadcastInDim S50000x1 ![0] bcast_S50000_S50000x1_0 inv))

/-- One dense layer as the host spells it. -/
def layer (x g : FVec F S50000x96 .f32) (Ws Wn : FVec F S96x96 .f32) (b : FVec F S96 .f32) : FVec F S50000x96 .f32 :=
  addf (addf (Host.dotGeneral dot_S50000x96_S96x96_S50000x96_1_0_0_1_n_n none x Ws)
      (Host.dotGeneral dot_S50000x96_S96x96_S50000x96_1_0_0_1_n_n none g Wn))
    (broadcastInDim S50000x96 ![0, 1] bcast_S1x96_S50000x96_0_1 (broadcastInDim S1x96 ![1] bcast_S96_S1x96_1 b))

/-- The whole network. -/
def net (a0 : IVec S50000 32) (e1 e2 : IVec S800000 32) (emb : FVec F S64x96 .f32)
    (Ws0 Wn0 : FVec F S96x96 .f32) (b0 : FVec F S96 .f32) (Ws1 Wn1 : FVec F S96x96 .f32) (b1 : FVec F S96 .f32)
    (Ws2 Wn2 : FVec F S96x96 .f32) (b2 : FVec F S96 .f32) : FVec F S50000x96 .f32 :=
  let x0 := lookup a0 emb
  let x1 := layer x0 (agg x0 e1 e2 (invDeg e2)) Ws0 Wn0 b0
  let x2 := layer x1 (agg x1 e1 e2 (invDeg e2)) Ws1 Wn1 b1
  layer x2 (agg x2 e1 e2 (invDeg e2)) Ws2 Wn2 b2

set_option maxHeartbeats 4000000 in
/-- The run's result term is the network of the launch contents of the arguments. -/
theorem res_eq (m : (ℓ : Loc nD τ sig) → Buf (Elt F) ℓ) (c : Dev nD) :
    res_main_v71 m c = net (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12)) := by
  unfold res_main_v71 net layer agg invDeg lookup
  rfl

end Stages

/-! ## At the extended reals -/

/-- A dense layer of the host is the layer function of its operands. -/
theorem layer_eq (x g : FVec Ideal S50000x96 .f32) (Ws Wn : FVec Ideal S96x96 .f32) (b : FVec Ideal S96 .f32) :
    layer x g Ws Wn b = Cert.Sage.sage x g Ws Wn (Cert.Mlp.vec b) :=
  Cert.Sage.host_sage dot_S50000x96_S96x96_S50000x96_1_0_0_1_n_n rfl bcast_S96_S1x96_1 bcast_S1x96_S50000x96_0_1 x g Ws Wn b

/-- The lookup reads row degree[n] of the table when every degree word is below 64. -/
theorem lookup_eq (a0 : IVec S50000 32) (emb : FVec Ideal S64x96 .f32) (h : ∀ p : Fin 50000, (a0 (ix1 p)).toNat < 64) :
    lookup a0 emb = fun i => emb (ix2 ⟨min (a0 (ix1 (i 0))).toNat 63, by omega⟩ (i 1)) := by
  funext i
  obtain ⟨p, k, rfl⟩ : ∃ (p : Fin 50000) (k : Fin 96), i = ix2 p k := ⟨i 0, i 1, eq_ix2 i⟩
  unfold lookup
  refine (Cert.RowGather.gather_rows_apply (T := 64) (C := 96) (N := 50000) (by decide) gather_S64x96_S50000x1_S50000x96_1_0_n_n_0_1_196.wf emb _ p k).trans ?_
  have e1 : (ix2 p (0 : Fin 1) : S50000x1.Idx) = StableHlo.Predicate.ixP p :=
    funext fun a => by match a with | ⟨0, _⟩ => rfl | ⟨1, _⟩ => rfl
  have e2 : (Shape.Idx.ofFin p : S50000.Idx) = ix1 p := funext fun a => by match a with | ⟨0, _⟩ => rfl
  have hsel : broadcastInDim S50000x1 ![0] bcast_S50000_S50000x1_0
        (select (cmpi .slt a0 (broadcastInDim S50000 ![] bcast_S_S50000 (constantI S_ 32 0#32)))
          (addi a0 (broadcastInDim S50000 ![] bcast_S_S50000 (constantI S_ 32 64#32))) a0) (ix2 p 0)
      = Scalar.select (IntOp.cmpi .slt (a0 (ix1 p)) 0#32) (IntOp.addi (a0 (ix1 p)) 64#32) (a0 (ix1 p)) := by
    rw [e1, StableHlo.Predicate.bcast_col1, e2, select_apply]
    show Scalar.select (IntOp.cmpi .slt (a0 (ix1 p)) (broadcastInDim S50000 ![] bcast_S_S50000 (constantI S_ 32 0#32) (ix1 p)))
        (IntOp.addi (a0 (ix1 p)) (broadcastInDim S50000 ![] bcast_S_S50000 (constantI S_ 32 64#32) (ix1 p))) (a0 (ix1 p)) = _
    rw [StableHlo.Predicate.bcast_scalar bcast_S_S50000 (by decide), StableHlo.Predicate.bcast_scalar bcast_S_S50000 (by decide)]
    rfl
  have hw := Cert.RowGather.wrap_clamp (a0 (ix1 p)) 64#32 64 (h p) (by decide)
  have hp := h p
  refine congrArg emb (congrArg (fun r : Fin 64 => ix2 r k) (Fin.ext ?_))
  show min (broadcastInDim S50000x1 ![0] bcast_S50000_S50000x1_0
        (select (cmpi .slt a0 (broadcastInDim S50000 ![] bcast_S_S50000 (constantI S_ 32 0#32)))
          (addi a0 (broadcastInDim S50000 ![] bcast_S_S50000 (constantI S_ 32 64#32))) a0) (ix2 p 0)).toInt.toNat (64 - 1)
      = min (a0 (ix1 p)).toNat 63
  rw [hsel, hw]
  omega

end Cert.ReferenceIdeal.RefValue

end
-- ==== Proof.PreRange.lean ====
/-
  The added precondition, read: its last two conjuncts say that every index word of the table lookup, as a signed
  32-bit integer, is at least 0 and below 64.  A word whose signed value is non-negative has its top bit clear, so its
  unsigned value is the same number, below 64.  The conjuncts about the float inputs are left closed.
-/
import proofs.«416371_j28604482191526_1_alg».proof.Pre_finite_inputs
import proofs.«416371_j28604482191526_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Cert.Pre_finite_inputs

/-- The rank-0 shape has exactly one index (the empty tuple). -/
private instance subsingleton_scalar_idx : Subsingleton S_.Idx := ⟨fun a b => funext fun d => d.elim0⟩

/-- A 32-bit word that is at least 0 and below 64 as a signed integer is below 64 as a natural number:
    nonnegativity as a signed integer forces the top bit clear, so the signed and unsigned readings agree. -/
private theorem toNat_lt_of_signed_range (w : BitVec 32) (h0 : IntOp.cmpi .sge w 0#32 = 1#1)
    (h1 : IntOp.cmpi .slt w 64#32 = 1#1) : w.toNat < 64 := by
  rw [IntOp.cmpi_sge, show (0#32 : BitVec 32).toInt = 0 from by decide] at h0
  rw [IntOp.cmpi_slt, show (64#32 : BitVec 32).toInt = 64 from by decide] at h1
  rw [BitVec.toInt_eq_toNat_cond] at h0 h1
  have hw := w.isLt
  split at h0 <;> omega

/-- The precondition's last two conjuncts, read: every index word, as a signed integer, is at least 0 and below 64,
    so as a natural number it is below 64. -/
theorem degree_lt (a0 : IVec S50000 32) (a1 a2 : IVec S800000 32) (a3 : FVec Ideal S64x96 .f32)
    (a4 a5 : FVec Ideal S96x96 .f32) (a6 : FVec Ideal S96 .f32) (a7 a8 : FVec Ideal S96x96 .f32) (a9 : FVec Ideal S96 .f32)
    (a10 a11 : FVec Ideal S96x96 .f32) (a12 : FVec Ideal S96 .f32)
    (h : Cert.Pre_finite_inputs.fn (F := Ideal) a0 a1 a2 a3 a4 a5 a6 a7 a8 a9 a10 a11 a12 = (fun _ => 1#1)) :
    ∀ p : Fin 50000, (a0 (ix1 p)).toNat < 64 := by
  intro p
  -- the predicate's one result word is 1
  have e := congrFun h ix0
  dsimp only [fn, fn_part1, fn_part2, fn_part3] at e
  -- the result is a conjunction of three words: the float conjuncts (left alone), then the two all-reductions
  -- over the index words
  obtain ⟨e12, eLt⟩ := IntOp.andi_eq_one.1 e
  obtain ⟨-, eGe⟩ := IntOp.andi_eq_one.1 e12
  -- an all-reduction that is 1 had a 1 at every element: read both at element p
  have hGe := Host.reduce_andi_all _ _ _ _ _ eGe (ix1 p)
  have hLt := Host.reduce_andi_all _ _ _ _ _ eLt (ix1 p)
  exact toNat_lt_of_signed_range _ hGe hLt

end Cert.PreRange

end
-- ==== Proof.lean ====
/-
  The certificate of a three-layer graph network (mean aggregation) whose dense parts run as four kernel launches:
  an embedding lookup written as a one-hot matrix product, then three times  x @ Ws + mean(x) @ Wn + b  tiled over
  blocks of 5000 node rows, the gather / scatter-add of the neighbourhood mean staying on the host between launches.
  The reference does the lookup as a gather and the dense parts as whole matrix products.

  Over the extended reals the two programs compute one function when every index word of the lookup is in the table's
  range 0 … 63 (the added precondition; outside it the reference wraps and clamps while a one-hot product gives a zero
  row):
    * the lookup: a sum over the 64 table rows of (1 if the row number is the index word, else 0) times the row is the
      one row picked — zero times anything is zero and one times anything is itself on the extended reals;
    * a dense layer: each entry is the same two sums over the 96 features plus the bias in both programs, and an entry
      of a block of rows is the entry of the whole array, so ten blocks tile the array;
    * the neighbourhood mean and the in-degree's reciprocal are the same operations in both programs and are never
      opened.
  No finiteness of the float inputs is used.  The frames: the kernel programs' are the generated frame certificate,
  the reference's is its generated run with the result dropped.  The idealization rewrote nothing, so the
  idealized kernel is the kernel's own text.
-/
import proofs.«416371_j28604482191526_1_alg».proof.Defs
import proofs.«416371_j28604482191526_1_alg».proof.Proof.KernelFrame
import proofs.«416371_j28604482191526_1_alg».proof.Proof.KernelIdealFrame
import proofs.«416371_j28604482191526_1_alg».proof.Proof.KernelIdealRun
import proofs.«416371_j28604482191526_1_alg».proof.Proof.Chain
import proofs.«416371_j28604482191526_1_alg».proof.Proof.RefValue
import proofs.«416371_j28604482191526_1_alg».proof.Proof.PreRange
import proofs.«416371_j28604482191526_1_alg».proof.Proof.Gen.ReferenceIdeal
import proofs.«416371_j28604482191526_1_alg».proof.Proof.Gen.Pre_finite_inputs
import Idealize.ShloMosaic.Adequacy
import Idealize.ShloMosaic.Init

noncomputable section

namespace Cert.Proof

open Idealize.ShloMosaic Idealize.ShloMosaic.ValueIdx Idealize.SL.Sem

/-! ## The two programs' shared host functions are one function -/

theorem invDeg_eq {F : FTy → Type} [FloatOps F] (e2 : IVec Cert.ReferenceIdeal.S800000 32) :
    Cert.ReferenceIdeal.RefValue.invDeg (F := F) e2 = Cert.KernelIdeal.Host.invDeg (F := F) e2 := rfl

theorem agg_eq {F : FTy → Type} [FloatOps F] (x : FVec F Cert.ReferenceIdeal.S50000x96 .f32) (e1 e2 : IVec Cert.ReferenceIdeal.S800000 32)
    (inv : FVec F Cert.ReferenceIdeal.S50000 .f32) :
    Cert.ReferenceIdeal.RefValue.agg (F := F) x e1 e2 inv = Cert.KernelIdeal.Host.agg (F := F) x e1 e2 inv := rfl

/-- The reference's network is three layers over the table lookup, when every index word is below 64. -/
theorem net_eq (a0 : IVec Cert.ReferenceIdeal.S50000 32) (e1 e2 : IVec Cert.ReferenceIdeal.S800000 32) (emb : FVec Ideal Cert.ReferenceIdeal.S64x96 .f32)
    (Ws0 Wn0 : FVec Ideal Cert.ReferenceIdeal.S96x96 .f32) (b0 : FVec Ideal Cert.ReferenceIdeal.S96 .f32)
    (Ws1 Wn1 : FVec Ideal Cert.ReferenceIdeal.S96x96 .f32) (b1 : FVec Ideal Cert.ReferenceIdeal.S96 .f32)
    (Ws2 Wn2 : FVec Ideal Cert.ReferenceIdeal.S96x96 .f32) (b2 : FVec Ideal Cert.ReferenceIdeal.S96 .f32)
    (h : ∀ p : Fin 50000, (a0 (ix1 p)).toNat < 64) :
    Cert.ReferenceIdeal.RefValue.net (F := Ideal) a0 e1 e2 emb Ws0 Wn0 b0 Ws1 Wn1 b1 Ws2 Wn2 b2
      = Cert.KernelIdeal.Chain.step (Cert.KernelIdeal.Chain.step (Cert.KernelIdeal.Chain.step (Cert.KernelIdeal.Chain.feat0 a0 emb) e1 e2 Ws0 Wn0 b0) e1 e2 Ws1 Wn1 b1)
          e1 e2 Ws2 Wn2 b2 := by
  unfold Cert.ReferenceIdeal.RefValue.net
  dsimp only
  simp only [Cert.ReferenceIdeal.RefValue.layer_eq, Cert.ReferenceIdeal.RefValue.lookup_eq a0 emb h, invDeg_eq, agg_eq]
  rfl

/-! ## The claims -/

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both runs end with the result buffer at three layers over the table lookup of the (agreeing) arguments. -/
theorem algebraic : Cert.algebraic_KernelIdeal_ReferenceIdeal := by
  intro m ρ m' ρ' hpre hagree
  have hrange : ∀ (c : Dev Cert.KernelIdeal.nD) (p : Fin 50000), ((m ((c.tc : Thread Cert.KernelIdeal.nD Cert.KernelIdeal.τ).loc Cert.KernelIdeal.main_arg0)) (ix1 p)).toNat < 64 := fun c =>
    Cert.PreRange.degree_lt _ _ _ _ _ _ _ _ _ _ _ _ _ (hpre c)
  refine ⟨fun c => Cert.KernelIdeal.Chain.step (Cert.KernelIdeal.Chain.step (Cert.KernelIdeal.Chain.step
      (Cert.KernelIdeal.Chain.feat0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.Chain.result m ρ c (hrange c)), (h c).2⟩)
      (Cert.KernelIdeal.GenP.run_value (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12⟩ := hagree c
    rw [Cert.ReferenceIdeal.RefValue.res_eq, h0, h1, h2, h3, h4, h5, h6, h7, h8, h9, h10, h11, h12]
    exact net_eq _ _ _ _ _ _ _ _ _ _ _ _ _ (hrange c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
